-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S1000x1000 : Shape := ⟨2, ![1000, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) (main_arg2 : FVec F S1000x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 32 := constantI S_ 32 1000#32
  let main_v11 : IVec S65536 32 := broadcastInDim S65536 ![] bcast_S_S65536 main_c_3
  let main_v12 : IVec S65536 1 := cmpi .slt main_arg1 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x1000 : Shape := ⟨2, ![65536, 1000]⟩
abbrev S65536 : Shape := ⟨1, ![65536]⟩
abbrev S1000x1000 : Shape := ⟨2, ![1000, 1000]⟩
abbrev S65536x1 : Shape := ⟨2, ![65536, 1]⟩
abbrev S_ : Shape := ⟨0, ![]⟩
abbrev S1000 : Shape := ⟨1, ![1000]⟩
abbrev S1000x1 : Shape := ⟨2, ![1000, 1]⟩
abbrev S2x1x1 : Shape := ⟨3, ![2, 1, 1]⟩
abbrev S1024x1000 : Shape := ⟨2, ![1024, 1000]⟩
abbrev S1024x1 : Shape := ⟨2, ![1024, 1]⟩
abbrev S1x1x1 : Shape := ⟨3, ![1, 1, 1]⟩
abbrev S1x1 : Shape := ⟨2, ![1, 1]⟩
abbrev S1024 : Shape := ⟨1, ![1024]⟩
abbrev S1 : Shape := ⟨1, ![1]⟩

abbrev nBuf : Space → Nat
  | .hbm => 31
  | .vmem => 8
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000x1000, .f32⟩
  | .hbm, ⟨3, _⟩ => ⟨S65536x1, .i32⟩
  | .hbm, ⟨4, _⟩ => ⟨S1000x1000, .f32⟩
  | .hbm, ⟨5, _⟩ => ⟨S_, .f32⟩
  | .hbm, ⟨6, _⟩ => ⟨S1000x1000, .f32⟩
  | .hbm, ⟨7, _⟩ => ⟨S1000x1000, .f32⟩
  | .hbm, ⟨8, _⟩ => ⟨S_, .f32⟩
  | .hbm, ⟨9, _⟩ => ⟨S1000, .f32⟩
  | .hbm, ⟨10, _⟩ => ⟨S_, .f32⟩
  | .hbm, ⟨11, _⟩ => ⟨S1000, .f32⟩
  | .hbm, ⟨12, _⟩ => ⟨S1000, .f32⟩
  | .hbm, ⟨13, _⟩ => ⟨S1000x1, .f32⟩
  | .hbm, ⟨14, _⟩ => ⟨S1000x1000, .f32⟩
  | .hbm, ⟨15, _⟩ => ⟨S1000x1000, .f32⟩
  | .hbm, ⟨16, _⟩ => ⟨S1000x1000, .f32⟩
  | .hbm, ⟨17, _⟩ => ⟨S_, .f32⟩
  | .hbm, ⟨18, _⟩ => ⟨S1000, .f32⟩
  | .hbm, ⟨19, _⟩ => ⟨S1000x1, .f32⟩
  | .hbm, ⟨20, _⟩ => ⟨S1000x1000, .f32⟩
  | .hbm, ⟨21, _⟩ => ⟨S1000x1000, .f32⟩
  | .hbm, ⟨22, _⟩ => ⟨S1000x1000, .bf16⟩
  | .hbm, ⟨23, _⟩ => ⟨S2x1x1, .f32⟩
  | .hbm, ⟨24, _⟩ => ⟨S1x1x1, .f32⟩
  | .hbm, ⟨25, _⟩ => ⟨S_, .f32⟩
  | .hbm, ⟨26, _⟩ => ⟨S1x1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1000x1000, .bf16⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S65536_S65536x1 : S65536.ShapeCasts S65536x1
  bcast_S_S1000x1000 : S_.BroadcastsInDim S1000x1000 (![] : Fin 0 → Fin S1000x1000.rank)
  reducesTo_S1000x1000_S1000_d1 : S1000x1000.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  natLt_1_32 : 1 < 32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  dot_S1024x1000_S1000x1000_S1024x1000_1_0_0_1_n_n_wf : DotDims.WF S1024x1000 S1000x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S1000x1000.size a
  hwx0_2 : ∀ i : grid0.Coords, EltTy.bits .bf16 = 32 ∨ (Rect.block (s := S1000x1000) S1000x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S1024x1000_S1000x1000_S1024x1000_1_0_0_1_n_n : DotDims S1024x1000 S1000x1000 S1024x1000 where
  lhsContracting := [1]
  rhsContracting := [0]
  lhsNonContracting := [0]
  rhsNonContracting := [1]
  lhsBatch := []
  rhsBatch := []
  wf := dot_S1024x1000_S1000x1000_S1024x1000_1_0_0_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x1000 : Shape := ⟨2, ![65536, 1000]⟩
abbrev S65536 : Shape := ⟨1, ![65536]⟩
abbrev S1000x1000 : Shape := ⟨2, ![1000, 1000]⟩
abbrev S_ : Shape := ⟨0, ![]⟩
abbrev S65536x1 : Shape := ⟨2, ![65536, 1]⟩

abbrev nBuf : Space → Nat
  | .hbm => 53
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000x1000, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x1000, .f32⟩
  | .hbm, ⟨12, _⟩ => ⟨S65536x1000, .f32⟩
  | .hbm, ⟨13, _⟩ => ⟨S_, .f32⟩
  | .hbm, ⟨14, _⟩ => ⟨S65536x1000, .f32⟩
  | .hbm, ⟨15, _⟩ => ⟨S65536x1000, .f32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S65536x1, .f32⟩
  | .hbm, ⟨22, _⟩ => ⟨S65536x1000, .f32⟩
  | .hbm, ⟨23, _⟩ => ⟨S65536x1000, .f32⟩
  | .hbm, ⟨24, _⟩ => ⟨S65536x1000, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x1000, .f32⟩
  | .hbm, ⟨29, _⟩ => ⟨S65536x1000, .f32⟩
  | .hbm, ⟨30, _⟩ => ⟨S_, .f32⟩
  | .hbm, ⟨31, _⟩ => ⟨S65536, .f32⟩
  | .hbm, ⟨32, _⟩ => ⟨S_, .f32⟩
  | .hbm, ⟨33, _⟩ => ⟨S65536, .f32⟩
  | .hbm, ⟨34, _⟩ => ⟨S65536, .f32⟩
  | .hbm, ⟨35, _⟩ => ⟨S65536x1, .f32⟩
  | .hbm, ⟨36, _⟩ => ⟨S65536x1000, .f32⟩
  | .hbm, ⟨37, _⟩ => ⟨S65536x1000, .f32⟩
  | .hbm, ⟨38, _⟩ => ⟨S65536x1000, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S65536x1, .f32⟩
  | .hbm, ⟨43, _⟩ => ⟨S65536x1000, .f32⟩
  | .hbm, ⟨44, _⟩ => ⟨S65536x1000, .f32⟩
  | .hbm, ⟨45, _⟩ => ⟨S65536x1000, .f32⟩
  | .hbm, ⟨46, _⟩ => ⟨S_, .f32⟩
  | .hbm, ⟨47, _⟩ => ⟨S65536, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1000 : S_.BroadcastsInDim S65536x1000 (![] : Fin 0 → Fin S65536x1000.rank)
  reducesTo_S65536x1000_S65536_d1 : S65536x1000.ReducesTo [1] S65536
  h_S_ : 0 < S_.numel
  bcast_S65536x1_S65536x1000_0_1 : S65536x1.BroadcastsInDim S65536x1000 (![0, 1] : Fin 2 → Fin S65536x1000.rank)
  reducesTo_S65536_S_d0 : S65536.ReducesTo [0] S_
  gather_S1000x1000_S65536x1_S65536x1000_1_0_n_n_0_1_11000_wf : GatherDims.WF S1000x1000 S65536x1 S65536x1000 [1] [0] [] [0] [] 1 ![1, 1000]

variable [Facts₀]

def gather_S1000x1000_S65536x1_S65536x1000_1_0_n_n_0_1_11000 : GatherDims S1000x1000 S65536x1 S65536x1000 where
  offsetDims := [1]
  collapsedSliceDims := [0]
  operandBatchingDims := []
  startIndicesBatchingDims := []
  startIndexMap := [0]
  indexVectorDim := 1
  sliceSizes := ![1, 1000]
  wf := gather_S1000x1000_S65536x1_S65536x1000_1_0_n_n_0_1_11000_wf

class Facts : Prop extends Facts₀ where

variable [Facts]
-- ==== Proof.PreFacts.lean ====
/-
  What the precondition says of the three argument arrays: the two float arrays hold real numbers and every label is a
  class number below 1000.

  The precondition is one bit, the conjunction of three "for all entries" statements: |logits| < +∞, |similarity| < +∞,
  and 0 ≤ label < 1000 in the signed reading of a 32-bit word. A conjunction of bits is 1 only when each is; an
  and-fold over every entry of a mask that started at 1 and ended at 1 met only 1s. So the claim comes down to one
  entry at a time. For a float entry x, read as an extended real, |x| = max x (−x) lies below ⊤ only when x is neither
  ⊤ (then the maximum is ⊤) nor ⊥ (then −x = ⊤): x is a real. For a label word w, 0 ≤ w rules out a set sign bit, so
  the signed and the unsigned readings agree and w is the word of the natural number w.toNat < 1000.

  Also here: the two float literals the programs spell, as the reals their bit patterns denote.
-/
import proofs.«402906_j20048907337768_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The scalar shape has no axis, so any two of its indices (functions out of the empty set of axes) are equal. -/
local instance subsingleton_scalar_idx : Subsingleton S_.Idx := ⟨fun a b => funext fun d => d.elim0⟩

/-- The word with a clear sign bit, all eight exponent bits set and no fraction bit denotes ⊤, the top of the extended
    reals: it is +∞. -/
theorem lit_inf : Ideal.ofBits .f32 0x7F800000#32 = (⊤ : EReal) := by
  simp [Ideal.ofBits, Ideal.ieee]

/-- An extended real whose absolute value, the larger of x and −x, lies strictly below ⊤ is a real number:
    at ⊤ the maximum is ⊤ itself, and at ⊥ it is −⊥ = ⊤. -/
theorem real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

/-- One entry of the mask "|a| < +∞" being set says that entry of a is a real number. The right-hand side of the
    comparison is the scalar +∞ repeated at every index, and the comparison is the strict order of the extended reals. -/
theorem real_of_mask {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = ((r : ℝ) : EReal) := by
  have h1 : BitVec.ofBool (decide (max (a i) (-(a i)) < Ideal.ofBits .f32 0x7F800000#32)) = 1#1 := h
  rw [lit_inf, StableHlo.Predicate.ofBool_eq_one_iff, decide_eq_true_eq] at h1
  exact real_of_abs_lt_top _ h1

/-- A 32-bit word that is at least 0 and below 1000 as a signed number is the word of a natural number below 1000:
    its sign bit is clear, so its signed and unsigned readings agree. -/
theorem label_of_mask (w : BitVec 32)
    (h : IntOp.andi (IntOp.cmpi .sge w 0#32) (IntOp.cmpi .slt w 1000#32) = 1#1) :
    ∃ k : Fin 1000, w = BitVec.ofNat 32 k.val := by
  obtain ⟨hge, hlt⟩ := IntOp.andi_eq_one.1 h
  simp only [IntOp.cmpi, StableHlo.Predicate.ofBool_eq_one_iff, BitVec.sle, BitVec.slt, decide_eq_true_eq] at hge hlt
  have h0 : (0#32 : BitVec 32).toInt = 0 := by decide
  have h1000 : (1000#32 : BitVec 32).toInt = 1000 := by decide
  rw [h0] at hge
  rw [h1000] at hlt
  rw [BitVec.toInt_eq_toNat_cond] at hge hlt
  have hw := w.isLt
  have hk : w.toNat < 1000 := by
    split at hge <;> split at hlt <;> omega
  refine ⟨⟨w.toNat, hk⟩, BitVec.eq_of_toNat_eq ?_⟩
  rw [BitVec.toNat_ofNat]
  exact (Nat.mod_eq_of_lt hw).symm

/-- Under the precondition the logits and the similarities are real numbers, entry by entry, and each label is a
    natural number below 1000 (read as a 32-bit word). -/
theorem of_pre [Cert.Pre_finite_inputs.Facts] (a0 : FVec Ideal S65536x1000 .f32) (a1 : IVec S65536 32) (a2 : FVec Ideal S1000x1000 .f32)
    (h : Cert.Pre_finite_inputs.fn (F := Ideal) a0 a1 a2 = fun _ => 1#1) :
    (∃ x : Fin 65536 → Fin 1000 → ℝ, ∀ b c, a0 (ix2 b c) = ((x b c : ℝ) : EReal))
    ∧ (∃ s : Fin 1000 → Fin 1000 → ℝ, ∀ k c, a2 (ix2 k c) = ((s k c : ℝ) : EReal))
    ∧ (∃ t : Fin 65536 → Fin 1000, ∀ b, a1 (ix1 b) = BitVec.ofNat 32 (t b).val) := by
  have h0 := congrFun h ValueIdx.ix0
  dsimp only [Cert.Pre_finite_inputs.fn] at h0
  obtain ⟨h01, hlab⟩ := IntOp.andi_eq_one.1 h0
  obtain ⟨hlog, hsim⟩ := IntOp.andi_eq_one.1 h01
  have e0 := fun i => real_of_mask a0 _ i (Host.reduce_andi_all _ _ _ _ _ hlog i)
  have e2 := fun i => real_of_mask a2 _ i (Host.reduce_andi_all _ _ _ _ _ hsim i)
  have e1 := fun i => label_of_mask (a1 i) (Host.reduce_andi_all _ _ _ _ _ hlab i)
  choose x hx using e0
  choose s hs using e2
  choose t ht using e1
  exact ⟨⟨fun b c => x (ix2 b c), fun b c => hx _⟩, ⟨fun k c => s (ix2 k c), fun k c => hs _⟩, ⟨fun b => t (ix1 b), fun b => ht _⟩⟩

/-- The temperature literal 0.3 (as an f32 word) denotes a nonzero real. The word has a clear sign bit, exponent field
    125 and fraction field 1677722, so it denotes (2²³ + 1677722) · 2^(125 − 127 − 23) = 10066330 / 2²⁵, a positive
    rational (the nearest single-precision number to 3/10, not 3/10 itself). -/
theorem lit_temp : ∃ d : ℝ, d ≠ 0 ∧ Ideal.ofBits .f32 0x3E99999A#32 = ((d : ℝ) : EReal) := by
  simp [Ideal.ofBits, Ideal.ieee, -EReal.coe_mul]

/-- The sample count 65536.0 (as an f32 word) denotes the real 65536. The word has a clear sign bit, exponent field 143
    and fraction field 0, so it denotes 2²³ · 2^(143 − 127 − 23) = 2¹⁶. -/
theorem lit_count : Ideal.ofBits .f32 0x47800000#32 = (((65536 : ℝ)) : EReal) := by
  simp [Ideal.ofBits, Ideal.ieee, -EReal.coe_mul]; norm_num

end Cert.PreFacts

end
-- ==== Proof.RefRun.lean ====
/-
  The reference program's run.

  The reference is a straight line of fifty host operations, each writing one buffer as a pure function of buffers
  written before it.  So after any weakly fair execution every buffer holds the composition of those functions over
  the three argument arrays as the program was launched, and the arguments are untouched.  The result buffer's
  composition is the last of the stages of the operation-by-operation reading (`ReadP.val_main_v26`).

  Fifteen of the operations belong to a function the program calls (the log-softmax of the logits) and are printed
  through references that carry their tensor type; such a reference transports values along the equation between its
  buffer's type and the tensor type.  That equation holds by computation, so an operation through typed references IS
  the operation on the buffers themselves (`nullary_of`, `unary_of`, `binary_of`: for any buffers and any function),
  and the list is restated over the buffers themselves (`ops`) before its results are read, so that no transport
  stands in the composed term.
-/
import proofs.«402906_j20048907337768_2_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## An operation through typed references is the operation on the buffers -/

theorem nullary_of (y : Ref sig .tc) (dy : y.space ≠ .host) (uy : y.isScoped = false) (v : y.ty.Contents (Elt F))
    (hy : y.space ≠ .host ∧ (y : DevRef τ sig).isScoped = false) :
    (TRef.nullary (TRef.of (T := y.ty) y rfl dy uy) v : HloOp τ sig (Elt F)) = nullary y v hy := rfl

theorem unary_of (x y : Ref sig .tc) (dx : x.space ≠ .host) (ux : x.isScoped = false) (dy : y.space ≠ .host) (uy : y.isScoped = false)
    (f : x.ty.Contents (Elt F) → y.ty.Contents (Elt F))
    (hx : x.space ≠ .host ∧ (x : DevRef τ sig).isScoped = false) (hy : y.space ≠ .host ∧ (y : DevRef τ sig).isScoped = false) :
    (TRef.unary (TRef.of (T := x.ty) x rfl dx ux) (TRef.of (T := y.ty) y rfl dy uy) f : HloOp τ sig (Elt F)) = unary x y f hx hy := rfl

theorem binary_of (a b y : Ref sig .tc) (da : a.space ≠ .host) (ua : a.isScoped = false) (db : b.space ≠ .host) (ub : b.isScoped = false)
    (dy : y.space ≠ .host) (uy : y.isScoped = false)
    (f : a.ty.Contents (Elt F) → b.ty.Contents (Elt F) → y.ty.Contents (Elt F))
    (ha : a.space ≠ .host ∧ (a : DevRef τ sig).isScoped = false) (hb : b.space ≠ .host ∧ (b : DevRef τ sig).isScoped = false)
    (hy : y.space ≠ .host ∧ (y : DevRef τ sig).isScoped = false) :
    (TRef.binary (TRef.of (T := a.ty) a rfl da ua) (TRef.of (T := b.ty) b rfl db ub) (TRef.of (T := y.ty) y rfl dy uy) f : HloOp τ sig (Elt F))
      = binary a b y f ha hb hy := rfl

/-! ## The program as a list of operations -/

/-- The fifty operations as the program prints them (the called function's through typed references). -/
abbrev opsT : List (HloOp τ sig (Elt F)) :=
  [ nullary main_c (constantI S_ 32 0#32),
    unary main_c main_v0 (broadcastInDim S65536 ![] bcast_S_S65536 : (⟨S_, .i32⟩ : BufTy).Contents (Elt F) → (⟨S65536, .i32⟩ : BufTy).Contents (Elt F)),
    binary main_arg1 main_v0 main_v1 (cmpi .slt : (⟨S65536, .i32⟩ : BufTy).Contents (Elt F) → (⟨S65536, .i32⟩ : BufTy).Contents (Elt F) → (⟨S65536, .i1⟩ : BufTy).Contents (Elt F)),
    nullary main_c_0 (constantI S_ 32 1000#32),
    unary main_c_0 main_v2 (broadcastInDim S65536 ![] bcast_S_S65536 : (⟨S_, .i32⟩ : BufTy).Contents (Elt F) → (⟨S65536, .i32⟩ : BufTy).Contents (Elt F)),
    binary main_arg1 main_v2 main_v3 (addi : (⟨S65536, .i32⟩ : BufTy).Contents (Elt F) → (⟨S65536, .i32⟩ : BufTy).Contents (Elt F) → (⟨S65536, .i32⟩ : BufTy).Contents (Elt F)),
    ternary main_v1 main_v3 main_arg1 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v4 main_v5 (broadcastInDim S65536x1 ![0] bcast_S65536_S65536x1_0 : (⟨S65536, .i32⟩ : BufTy).Contents (Elt F) → (⟨S65536x1, .i32⟩ : BufTy).Contents (Elt F)),
    binary main_arg2 main_v5 main_v6 ((fun x i => Host.gather gather_S1000x1000_S65536x1_S65536x1000_1_0_n_n_0_1_11000 x i) : (⟨S1000x1000, .f32⟩ : BufTy).Contents (Elt F) → (⟨S65536x1, .i32⟩ : BufTy).Contents (Elt F) → (⟨S65536x1000, .f32⟩ : BufTy).Contents (Elt F)),
    unary main_v6 main_v7 (Host.negf : (⟨S65536x1000, .f32⟩ : BufTy).Contents (Elt F) → (⟨S65536x1000, .f32⟩ : BufTy).Contents (Elt F)),
    nullary main_cst (constant S_ .f32 0x3E99999A#32),
    unary main_cst main_v8 (broadcastInDim S65536x1000 ![] bcast_S_S65536x1000 : (⟨S_, .f32⟩ : BufTy).Contents (Elt F) → (⟨S65536x1000, .f32⟩ : BufTy).Contents (Elt F)),
    binary main_v7 main_v8 main_v9 (Host.divf : (⟨S65536x1000, .f32⟩ : BufTy).Contents (Elt F) → (⟨S65536x1000, .f32⟩ : BufTy).Contents (Elt F) → (⟨S65536x1000, .f32⟩ : BufTy).Contents (Elt F)),
    nullary main_cst_1 (constant S_ .f32 0xFF800000#32),
    binary main_v9 main_cst_1 main_v10 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_cst_2 (constant S_ .f32 0xFF800000#32),
    unary main_cst_2 main_v11 (broadcastInDim S65536 ![] bcast_S_S65536 : (⟨S_, .f32⟩ : BufTy).Contents (Elt F) → (⟨S65536, .f32⟩ : BufTy).Contents (Elt F)),
    binary main_v11 main_v10 main_v12 (maximumf : (⟨S65536, .f32⟩ : BufTy).Contents (Elt F) → (⟨S65536, .f32⟩ : BufTy).Contents (Elt F) → (⟨S65536, .f32⟩ : BufTy).Contents (Elt F)),
    unary main_v12 main_v13 (broadcastInDim S65536x1 ![0] bcast_S65536_S65536x1_0 : (⟨S65536, .f32⟩ : BufTy).Contents (Elt F) → (⟨S65536x1, .f32⟩ : BufTy).Contents (Elt F)),
    unary main_v13 main_v14 (broadcastInDim S65536x1000 ![0, 1] bcast_S65536x1_S65536x1000_0_1 : (⟨S65536x1, .f32⟩ : BufTy).Contents (Elt F) → (⟨S65536x1000, .f32⟩ : BufTy).Contents (Elt F)),
    binary main_v9 main_v14 main_v15 (subf : (⟨S65536x1000, .f32⟩ : BufTy).Contents (Elt F) → (⟨S65536x1000, .f32⟩ : BufTy).Contents (Elt F) → (⟨S65536x1000, .f32⟩ : BufTy).Contents (Elt F)),
    unary main_v15 main_v16 (Host.exp : (⟨S65536x1000, .f32⟩ : BufTy).Contents (Elt F) → (⟨S65536x1000, .f32⟩ : BufTy).Contents (Elt F)),
    nullary main_cst_3 (constant S_ .f32 0x00000000#32),
    binary main_v16 main_cst_3 main_v17 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v17 main_v18 (broadcastInDim S65536x1 ![0] bcast_S65536_S65536x1_0 : (⟨S65536, .f32⟩ : BufTy).Contents (Elt F) → (⟨S65536x1, .f32⟩ : BufTy).Contents (Elt F)),
    unary main_v18 main_v19 (broadcastInDim S65536x1000 ![0, 1] bcast_S65536x1_S65536x1000_0_1 : (⟨S65536x1, .f32⟩ : BufTy).Contents (Elt F) → (⟨S65536x1000, .f32⟩ : BufTy).Contents (Elt F)),
    binary main_v16 main_v19 main_v20 (Host.divf : (⟨S65536x1000, .f32⟩ : BufTy).Contents (Elt F) → (⟨S65536x1000, .f32⟩ : BufTy).Contents (Elt F) → (⟨S65536x1000, .f32⟩ : BufTy).Contents (Elt F)),
    TRef.nullary (TRef.of (T := ⟨S_, .f32⟩) main_call0_cst) (constant S_ .f32 0xFF800000#32),
    TRef.binary (TRef.of (T := ⟨S65536x1000, .f32⟩) main_arg0) (TRef.of (T := ⟨S_, .f32⟩) main_call0_cst) (TRef.of (T := ⟨S65536, .f32⟩) main_call0_v0) (fun x v => Host.reduce FloatOps.maximumf x v reducesTo_S65536x1000_S65536_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S65536, .f32⟩) main_call0_v1) (broadcastInDim S65536 ![] bcast_S_S65536),
    TRef.binary (TRef.of (T := ⟨S65536, .f32⟩) main_call0_v1) (TRef.of (T := ⟨S65536, .f32⟩) main_call0_v0) (TRef.of (T := ⟨S65536, .f32⟩) main_call0_v2) maximumf,
    TRef.unary (TRef.of (T := ⟨S65536, .f32⟩) main_call0_v2) (TRef.of (T := ⟨S65536x1, .f32⟩) main_call0_v3) (broadcastInDim S65536x1 ![0] bcast_S65536_S65536x1_0),
    TRef.unary (TRef.of (T := ⟨S65536x1, .f32⟩) main_call0_v3) (TRef.of (T := ⟨S65536x1000, .f32⟩) main_call0_v4) (broadcastInDim S65536x1000 ![0, 1] bcast_S65536x1_S65536x1000_0_1),
    TRef.binary (TRef.of (T := ⟨S65536x1000, .f32⟩) main_arg0) (TRef.of (T := ⟨S65536x1000, .f32⟩) main_call0_v4) (TRef.of (T := ⟨S65536x1000, .f32⟩) main_call0_v5) subf,
    TRef.unary (TRef.of (T := ⟨S65536x1000, .f32⟩) main_call0_v5) (TRef.of (T := ⟨S65536x1000, .f32⟩) main_call0_v6) Host.exp,
    TRef.nullary (TRef.of (T := ⟨S_, .f32⟩) main_call0_cst_1) (constant S_ .f32 0x00000000#32),
    TRef.binary (TRef.of (T := ⟨S65536x1000, .f32⟩) main_call0_v6) (TRef.of (T := ⟨S_, .f32⟩) main_call0_cst_1) (TRef.of (T := ⟨S65536, .f32⟩) main_call0_v7) (fun x v => Host.reduceAdd x v reducesTo_S65536x1000_S65536_d1 h_S_),
    TRef.unary (TRef.of (T := ⟨S65536, .f32⟩) main_call0_v7) (TRef.of (T := ⟨S65536x1, .f32⟩) main_call0_v8) (broadcastInDim S65536x1 ![0] bcast_S65536_S65536x1_0),
    TRef.unary (TRef.of (T := ⟨S65536x1, .f32⟩) main_call0_v8) (TRef.of (T := ⟨S65536x1, .f32⟩) main_call0_v9) Host.log,
    TRef.unary (TRef.of (T := ⟨S65536x1, .f32⟩) main_call0_v9) (TRef.of (T := ⟨S65536x1000, .f32⟩) main_call0_v10) (broadcastInDim S65536x1000 ![0, 1] bcast_S65536x1_S65536x1000_0_1),
    TRef.binary (TRef.of (T := ⟨S65536x1000, .f32⟩) main_call0_v5) (TRef.of (T := ⟨S65536x1000, .f32⟩) main_call0_v10) (TRef.of (T := ⟨S65536x1000, .f32⟩) main_v21) subf,
    binary main_v20 main_v21 main_v22 (mulf : (⟨S65536x1000, .f32⟩ : BufTy).Contents (Elt F) → (⟨S65536x1000, .f32⟩ : BufTy).Contents (Elt F) → (⟨S65536x1000, .f32⟩ : BufTy).Contents (Elt F)),
    nullary main_cst_4 (constant S_ .f32 0x00000000#32),
    binary main_v22 main_cst_4 main_v23 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_cst_5 (constant S_ .f32 0x00000000#32),
    binary main_v23 main_cst_5 main_v24 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_6 (constant S_ .f32 0x47800000#32),
    binary main_v24 main_cst_6 main_v25 (Host.divf : (⟨S_, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)) ]

set_option maxRecDepth 8192 in
theorem main_eqT (c : Dev nD) : main (F := F) c = seq opsT := rfl

theorem op_0 : (TRef.nullary (TRef.of (T := ⟨S_, .f32⟩) main_call0_cst) (constant S_ .f32 0xFF800000#32) : HloOp τ sig (Elt F))
    = nullary main_call0_cst (constant S_ .f32 0xFF800000#32) :=
  nullary_of _ _ _ _ _

theorem op_1 : (TRef.binary (TRef.of (T := ⟨S65536x1000, .f32⟩) main_arg0) (TRef.of (T := ⟨S_, .f32⟩) main_call0_cst) (TRef.of (T := ⟨S65536, .f32⟩) main_call0_v0) (fun x v => Host.reduce FloatOps.maximumf x v reducesTo_S65536x1000_S65536_d1 h_S_) : HloOp τ sig (Elt F))
    = binary main_arg0 main_call0_cst main_call0_v0 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)) :=
  binary_of _ _ _ _ _ _ _ _ _ _ _ _ _

theorem op_2 : (TRef.nullary (TRef.of (T := ⟨S_, .f32⟩) main_call0_cst_0) (constant S_ .f32 0xFF800000#32) : HloOp τ sig (Elt F))
    = nullary main_call0_cst_0 (constant S_ .f32 0xFF800000#32) :=
  nullary_of _ _ _ _ _

theorem op_3 : (TRef.unary (TRef.of (T := ⟨S_, .f32⟩) main_call0_cst_0) (TRef.of (T := ⟨S65536, .f32⟩) main_call0_v1) (broadcastInDim S65536 ![] bcast_S_S65536) : HloOp τ sig (Elt F))
    = unary main_call0_cst_0 main_call0_v1 ((broadcastInDim S65536 ![] bcast_S_S65536) : (⟨S_, .f32⟩ : BufTy).Contents (Elt F) → (⟨S65536, .f32⟩ : BufTy).Contents (Elt F)) :=
  unary_of _ _ _ _ _ _ _ _ _

theorem op_4 : (TRef.binary (TRef.of (T := ⟨S65536, .f32⟩) main_call0_v1) (TRef.of (T := ⟨S65536, .f32⟩) main_call0_v0) (TRef.of (T := ⟨S65536, .f32⟩) main_call0_v2) maximumf : HloOp τ sig (Elt F))
    = binary main_call0_v1 main_call0_v0 main_call0_v2 (maximumf : (⟨S65536, .f32⟩ : BufTy).Contents (Elt F) → (⟨S65536, .f32⟩ : BufTy).Contents (Elt F) → (⟨S65536, .f32⟩ : BufTy).Contents (Elt F)) :=
  binary_of _ _ _ _ _ _ _ _ _ _ _ _ _

theorem op_5 : (TRef.unary (TRef.of (T := ⟨S65536, .f32⟩) main_call0_v2) (TRef.of (T := ⟨S65536x1, .f32⟩) main_call0_v3) (broadcastInDim S65536x1 ![0] bcast_S65536_S65536x1_0) : HloOp τ sig (Elt F))
    = unary main_call0_v2 main_call0_v3 ((broadcastInDim S65536x1 ![0] bcast_S65536_S65536x1_0) : (⟨S65536, .f32⟩ : BufTy).Contents (Elt F) → (⟨S65536x1, .f32⟩ : BufTy).Contents (Elt F)) :=
  unary_of _ _ _ _ _ _ _ _ _

theorem op_6 : (TRef.unary (TRef.of (T := ⟨S65536x1, .f32⟩) main_call0_v3) (TRef.of (T := ⟨S65536x1000, .f32⟩) main_call0_v4) (broadcastInDim S65536x1000 ![0, 1] bcast_S65536x1_S65536x1000_0_1) : HloOp τ sig (Elt F))
    = unary main_call0_v3 main_call0_v4 ((broadcastInDim S65536x1000 ![0, 1] bcast_S65536x1_S65536x1000_0_1) : (⟨S65536x1, .f32⟩ : BufTy).Contents (Elt F) → (⟨S65536x1000, .f32⟩ : BufTy).Contents (Elt F)) :=
  unary_of _ _ _ _ _ _ _ _ _

theorem op_7 : (TRef.binary (TRef.of (T := ⟨S65536x1000, .f32⟩) main_arg0) (TRef.of (T := ⟨S65536x1000, .f32⟩) main_call0_v4) (TRef.of (T := ⟨S65536x1000, .f32⟩) main_call0_v5) subf : HloOp τ sig (Elt F))
    = binary main_arg0 main_call0_v4 main_call0_v5 (subf : (⟨S65536x1000, .f32⟩ : BufTy).Contents (Elt F) → (⟨S65536x1000, .f32⟩ : BufTy).Contents (Elt F) → (⟨S65536x1000, .f32⟩ : BufTy).Contents (Elt F)) :=
  binary_of _ _ _ _ _ _ _ _ _ _ _ _ _

theorem op_8 : (TRef.unary (TRef.of (T := ⟨S65536x1000, .f32⟩) main_call0_v5) (TRef.of (T := ⟨S65536x1000, .f32⟩) main_call0_v6) Host.exp : HloOp τ sig (Elt F))
    = unary main_call0_v5 main_call0_v6 (Host.exp : (⟨S65536x1000, .f32⟩ : BufTy).Contents (Elt F) → (⟨S65536x1000, .f32⟩ : BufTy).Contents (Elt F)) :=
  unary_of _ _ _ _ _ _ _ _ _

theorem op_9 : (TRef.nullary (TRef.of (T := ⟨S_, .f32⟩) main_call0_cst_1) (constant S_ .f32 0x00000000#32) : HloOp τ sig (Elt F))
    = nullary main_call0_cst_1 (constant S_ .f32 0x00000000#32) :=
  nullary_of _ _ _ _ _

theorem op_10 : (TRef.binary (TRef.of (T := ⟨S65536x1000, .f32⟩) main_call0_v6) (TRef.of (T := ⟨S_, .f32⟩) main_call0_cst_1) (TRef.of (T := ⟨S65536, .f32⟩) main_call0_v7) (fun x v => Host.reduceAdd x v reducesTo_S65536x1000_S65536_d1 h_S_) : HloOp τ sig (Elt F))
    = binary main_call0_v6 main_call0_cst_1 main_call0_v7 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)) :=
  binary_of _ _ _ _ _ _ _ _ _ _ _ _ _

theorem op_11 : (TRef.unary (TRef.of (T := ⟨S65536, .f32⟩) main_call0_v7) (TRef.of (T := ⟨S65536x1, .f32⟩) main_call0_v8) (broadcastInDim S65536x1 ![0] bcast_S65536_S65536x1_0) : HloOp τ sig (Elt F))
    = unary main_call0_v7 main_call0_v8 ((broadcastInDim S65536x1 ![0] bcast_S65536_S65536x1_0) : (⟨S65536, .f32⟩ : BufTy).Contents (Elt F) → (⟨S65536x1, .f32⟩ : BufTy).Contents (Elt F)) :=
  unary_of _ _ _ _ _ _ _ _ _

theorem op_12 : (TRef.unary (TRef.of (T := ⟨S65536x1, .f32⟩) main_call0_v8) (TRef.of (T := ⟨S65536x1, .f32⟩) main_call0_v9) Host.log : HloOp τ sig (Elt F))
    = unary main_call0_v8 main_call0_v9 (Host.log : (⟨S65536x1, .f32⟩ : BufTy).Contents (Elt F) → (⟨S65536x1, .f32⟩ : BufTy).Contents (Elt F)) :=
  unary_of _ _ _ _ _ _ _ _ _

theorem op_13 : (TRef.unary (TRef.of (T := ⟨S65536x1, .f32⟩) main_call0_v9) (TRef.of (T := ⟨S65536x1000, .f32⟩) main_call0_v10) (broadcastInDim S65536x1000 ![0, 1] bcast_S65536x1_S65536x1000_0_1) : HloOp τ sig (Elt F))
    = unary main_call0_v9 main_call0_v10 ((broadcastInDim S65536x1000 ![0, 1] bcast_S65536x1_S65536x1000_0_1) : (⟨S65536x1, .f32⟩ : BufTy).Contents (Elt F) → (⟨S65536x1000, .f32⟩ : BufTy).Contents (Elt F)) :=
  unary_of _ _ _ _ _ _ _ _ _

theorem op_14 : (TRef.binary (TRef.of (T := ⟨S65536x1000, .f32⟩) main_call0_v5) (TRef.of (T := ⟨S65536x1000, .f32⟩) main_call0_v10) (TRef.of (T := ⟨S65536x1000, .f32⟩) main_v21) subf : HloOp τ sig (Elt F))
    = binary main_call0_v5 main_call0_v10 main_v21 (subf : (⟨S65536x1000, .f32⟩ : BufTy).Contents (Elt F) → (⟨S65536x1000, .f32⟩ : BufTy).Contents (Elt F) → (⟨S65536x1000, .f32⟩ : BufTy).Contents (Elt F)) :=
  binary_of _ _ _ _ _ _ _ _ _ _ _ _ _

/-- The same fifty operations over the buffers themselves. -/
abbrev ops : List (HloOp τ sig (Elt F)) :=
  [ nullary main_c (constantI S_ 32 0#32),
    unary main_c main_v0 (broadcastInDim S65536 ![] bcast_S_S65536 : (⟨S_, .i32⟩ : BufTy).Contents (Elt F) → (⟨S65536, .i32⟩ : BufTy).Contents (Elt F)),
    binary main_arg1 main_v0 main_v1 (cmpi .slt : (⟨S65536, .i32⟩ : BufTy).Contents (Elt F) → (⟨S65536, .i32⟩ : BufTy).Contents (Elt F) → (⟨S65536, .i1⟩ : BufTy).Contents (Elt F)),
    nullary main_c_0 (constantI S_ 32 1000#32),
    unary main_c_0 main_v2 (broadcastInDim S65536 ![] bcast_S_S65536 : (⟨S_, .i32⟩ : BufTy).Contents (Elt F) → (⟨S65536, .i32⟩ : BufTy).Contents (Elt F)),
    binary main_arg1 main_v2 main_v3 (addi : (⟨S65536, .i32⟩ : BufTy).Contents (Elt F) → (⟨S65536, .i32⟩ : BufTy).Contents (Elt F) → (⟨S65536, .i32⟩ : BufTy).Contents (Elt F)),
    ternary main_v1 main_v3 main_arg1 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v4 main_v5 (broadcastInDim S65536x1 ![0] bcast_S65536_S65536x1_0 : (⟨S65536, .i32⟩ : BufTy).Contents (Elt F) → (⟨S65536x1, .i32⟩ : BufTy).Contents (Elt F)),
    binary main_arg2 main_v5 main_v6 ((fun x i => Host.gather gather_S1000x1000_S65536x1_S65536x1000_1_0_n_n_0_1_11000 x i) : (⟨S1000x1000, .f32⟩ : BufTy).Contents (Elt F) → (⟨S65536x1, .i32⟩ : BufTy).Contents (Elt F) → (⟨S65536x1000, .f32⟩ : BufTy).Contents (Elt F)),
    unary main_v6 main_v7 (Host.negf : (⟨S65536x1000, .f32⟩ : BufTy).Contents (Elt F) → (⟨S65536x1000, .f32⟩ : BufTy).Contents (Elt F)),
    nullary main_cst (constant S_ .f32 0x3E99999A#32),
    unary main_cst main_v8 (broadcastInDim S65536x1000 ![] bcast_S_S65536x1000 : (⟨S_, .f32⟩ : BufTy).Contents (Elt F) → (⟨S65536x1000, .f32⟩ : BufTy).Contents (Elt F)),
    binary main_v7 main_v8 main_v9 (Host.divf : (⟨S65536x1000, .f32⟩ : BufTy).Contents (Elt F) → (⟨S65536x1000, .f32⟩ : BufTy).Contents (Elt F) → (⟨S65536x1000, .f32⟩ : BufTy).Contents (Elt F)),
    nullary main_cst_1 (constant S_ .f32 0xFF800000#32),
    binary main_v9 main_cst_1 main_v10 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_cst_2 (constant S_ .f32 0xFF800000#32),
    unary main_cst_2 main_v11 (broadcastInDim S65536 ![] bcast_S_S65536 : (⟨S_, .f32⟩ : BufTy).Contents (Elt F) → (⟨S65536, .f32⟩ : BufTy).Contents (Elt F)),
    binary main_v11 main_v10 main_v12 (maximumf : (⟨S65536, .f32⟩ : BufTy).Contents (Elt F) → (⟨S65536, .f32⟩ : BufTy).Contents (Elt F) → (⟨S65536, .f32⟩ : BufTy).Contents (Elt F)),
    unary main_v12 main_v13 (broadcastInDim S65536x1 ![0] bcast_S65536_S65536x1_0 : (⟨S65536, .f32⟩ : BufTy).Contents (Elt F) → (⟨S65536x1, .f32⟩ : BufTy).Contents (Elt F)),
    unary main_v13 main_v14 (broadcastInDim S65536x1000 ![0, 1] bcast_S65536x1_S65536x1000_0_1 : (⟨S65536x1, .f32⟩ : BufTy).Contents (Elt F) → (⟨S65536x1000, .f32⟩ : BufTy).Contents (Elt F)),
    binary main_v9 main_v14 main_v15 (subf : (⟨S65536x1000, .f32⟩ : BufTy).Contents (Elt F) → (⟨S65536x1000, .f32⟩ : BufTy).Contents (Elt F) → (⟨S65536x1000, .f32⟩ : BufTy).Contents (Elt F)),
    unary main_v15 main_v16 (Host.exp : (⟨S65536x1000, .f32⟩ : BufTy).Contents (Elt F) → (⟨S65536x1000, .f32⟩ : BufTy).Contents (Elt F)),
    nullary main_cst_3 (constant S_ .f32 0x00000000#32),
    binary main_v16 main_cst_3 main_v17 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v17 main_v18 (broadcastInDim S65536x1 ![0] bcast_S65536_S65536x1_0 : (⟨S65536, .f32⟩ : BufTy).Contents (Elt F) → (⟨S65536x1, .f32⟩ : BufTy).Contents (Elt F)),
    unary main_v18 main_v19 (broadcastInDim S65536x1000 ![0, 1] bcast_S65536x1_S65536x1000_0_1 : (⟨S65536x1, .f32⟩ : BufTy).Contents (Elt F) → (⟨S65536x1000, .f32⟩ : BufTy).Contents (Elt F)),
    binary main_v16 main_v19 main_v20 (Host.divf : (⟨S65536x1000, .f32⟩ : BufTy).Contents (Elt F) → (⟨S65536x1000, .f32⟩ : BufTy).Contents (Elt F) → (⟨S65536x1000, .f32⟩ : BufTy).Contents (Elt F)),
    nullary main_call0_cst (constant S_ .f32 0xFF800000#32),
    binary main_arg0 main_call0_cst main_call0_v0 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_call0_cst_0 (constant S_ .f32 0xFF800000#32),
    unary main_call0_cst_0 main_call0_v1 ((broadcastInDim S65536 ![] bcast_S_S65536) : (⟨S_, .f32⟩ : BufTy).Contents (Elt F) → (⟨S65536, .f32⟩ : BufTy).Contents (Elt F)),
    binary main_call0_v1 main_call0_v0 main_call0_v2 (maximumf : (⟨S65536, .f32⟩ : BufTy).Contents (Elt F) → (⟨S65536, .f32⟩ : BufTy).Contents (Elt F) → (⟨S65536, .f32⟩ : BufTy).Contents (Elt F)),
    unary main_call0_v2 main_call0_v3 ((broadcastInDim S65536x1 ![0] bcast_S65536_S65536x1_0) : (⟨S65536, .f32⟩ : BufTy).Contents (Elt F) → (⟨S65536x1, .f32⟩ : BufTy).Contents (Elt F)),
    unary main_call0_v3 main_call0_v4 ((broadcastInDim S65536x1000 ![0, 1] bcast_S65536x1_S65536x1000_0_1) : (⟨S65536x1, .f32⟩ : BufTy).Contents (Elt F) → (⟨S65536x1000, .f32⟩ : BufTy).Contents (Elt F)),
    binary main_arg0 main_call0_v4 main_call0_v5 (subf : (⟨S65536x1000, .f32⟩ : BufTy).Contents (Elt F) → (⟨S65536x1000, .f32⟩ : BufTy).Contents (Elt F) → (⟨S65536x1000, .f32⟩ : BufTy).Contents (Elt F)),
    unary main_call0_v5 main_call0_v6 (Host.exp : (⟨S65536x1000, .f32⟩ : BufTy).Contents (Elt F) → (⟨S65536x1000, .f32⟩ : BufTy).Contents (Elt F)),
    nullary main_call0_cst_1 (constant S_ .f32 0x00000000#32),
    binary main_call0_v6 main_call0_cst_1 main_call0_v7 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_call0_v7 main_call0_v8 ((broadcastInDim S65536x1 ![0] bcast_S65536_S65536x1_0) : (⟨S65536, .f32⟩ : BufTy).Contents (Elt F) → (⟨S65536x1, .f32⟩ : BufTy).Contents (Elt F)),
    unary main_call0_v8 main_call0_v9 (Host.log : (⟨S65536x1, .f32⟩ : BufTy).Contents (Elt F) → (⟨S65536x1, .f32⟩ : BufTy).Contents (Elt F)),
    unary main_call0_v9 main_call0_v10 ((broadcastInDim S65536x1000 ![0, 1] bcast_S65536x1_S65536x1000_0_1) : (⟨S65536x1, .f32⟩ : BufTy).Contents (Elt F) → (⟨S65536x1000, .f32⟩ : BufTy).Contents (Elt F)),
    binary main_call0_v5 main_call0_v10 main_v21 (subf : (⟨S65536x1000, .f32⟩ : BufTy).Contents (Elt F) → (⟨S65536x1000, .f32⟩ : BufTy).Contents (Elt F) → (⟨S65536x1000, .f32⟩ : BufTy).Contents (Elt F)),
    binary main_v20 main_v21 main_v22 (mulf : (⟨S65536x1000, .f32⟩ : BufTy).Contents (Elt F) → (⟨S65536x1000, .f32⟩ : BufTy).Contents (Elt F) → (⟨S65536x1000, .f32⟩ : BufTy).Contents (Elt F)),
    nullary main_cst_4 (constant S_ .f32 0x00000000#32),
    binary main_v22 main_cst_4 main_v23 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_cst_5 (constant S_ .f32 0x00000000#32),
    binary main_v23 main_cst_5 main_v24 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_6 (constant S_ .f32 0x47800000#32),
    binary main_v24 main_cst_6 main_v25 (Host.divf : (⟨S_, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)) ]

theorem opsT_eq : (opsT : List (HloOp τ sig (Elt F))) = ops := by
  unfold opsT ops
  rw [op_0, op_1, op_2, op_3, op_4, op_5, op_6, op_7, op_8, op_9, op_10, op_11, op_12, op_13, op_14]

theorem main_eq (c : Dev nD) : main (F := F) c = seq ops := (main_eqT c).trans (congrArg seq opsT_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub ..⟩

/-! ## What the result buffer holds -/

set_option maxRecDepth 8192 in
/-- The result buffer's composition of the operations over the launch contents of the arguments. -/
def res_main_v26 (m : (ℓ : Loc nD τ sig) → Buf (Elt F) ℓ) (c : Dev nD) : Buf (Elt F) ((c.tc : Thread nD τ).loc main_v26) :=
  Host.negf (Host.divf (Host.reduceAdd (Host.reduceAdd (mulf (Host.divf (Host.exp (subf (Host.divf (Host.negf (Host.gather gather_S1000x1000_S65536x1_S65536x1000_1_0_n_n_0_1_11000 (m ((c.tc : Thread nD τ).loc main_arg2)) (broadcastInDim S65536x1 ![0] bcast_S65536_S65536x1_0 (select (cmpi .slt (m ((c.tc : Thread nD τ).loc main_arg1)) (broadcastInDim S65536 ![] bcast_S_S65536 (constantI S_ 32 0#32))) (addi (m ((c.tc : Thread nD τ).loc main_arg1)) (broadcastInDim S65536 ![] bcast_S_S65536 (constantI S_ 32 1000#32))) (m ((c.tc : Thread nD τ).loc main_arg1)))))) (broadcastInDim S65536x1000 ![] bcast_S_S65536x1000 (constant S_ .f32 0x3E99999A#32))) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (Host.divf (Host.negf (Host.gather gather_S1000x1000_S65536x1_S65536x1000_1_0_n_n_0_1_11000 (m ((c.tc : Thread nD τ).loc main_arg2)) (broadcastInDim S65536x1 ![0] bcast_S65536_S65536x1_0 (select (cmpi .slt (m ((c.tc : Thread nD τ).loc main_arg1)) (broadcastInDim S65536 ![] bcast_S_S65536 (constantI S_ 32 0#32))) (addi (m ((c.tc : Thread nD τ).loc main_arg1)) (broadcastInDim S65536 ![] bcast_S_S65536 (constantI S_ 32 1000#32))) (m ((c.tc : Thread nD τ).loc main_arg1)))))) (broadcastInDim S65536x1000 ![] bcast_S_S65536x1000 (constant S_ .f32 0x3E99999A#32))) (constant S_ .f32 0xFF800000#32) reducesTo_S65536x1000_S65536_d1 h_S_)))))) (broadcastInDim S65536x1000 ![0, 1] bcast_S65536x1_S65536x1000_0_1 (broadcastInDim S65536x1 ![0] bcast_S65536_S65536x1_0 (Host.reduceAdd (Host.exp (subf (Host.divf (Host.negf (Host.gather gather_S1000x1000_S65536x1_S65536x1000_1_0_n_n_0_1_11000 (m ((c.tc : Thread nD τ).loc main_arg2)) (broadcastInDim S65536x1 ![0] bcast_S65536_S65536x1_0 (select (cmpi .slt (m ((c.tc : Thread nD τ).loc main_arg1)) (broadcastInDim S65536 ![] bcast_S_S65536 (constantI S_ 32 0#32))) (addi (m ((c.tc : Thread nD τ).loc main_arg1)) (broadcastInDim S65536 ![] bcast_S_S65536 (constantI S_ 32 1000#32))) (m ((c.tc : Thread nD τ).loc main_arg1)))))) (broadcastInDim S65536x1000 ![] bcast_S_S65536x1000 (constant S_ .f32 0x3E99999A#32))) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (Host.divf (Host.negf (Host.gather gather_S1000x1000_S65536x1_S65536x1000_1_0_n_n_0_1_11000 (m ((c.tc : Thread nD τ).loc main_arg2)) (broadcastInDim S65536x1 ![0] bcast_S65536_S65536x1_0 (select (cmpi .slt (m ((c.tc : Thread nD τ).loc main_arg1)) (broadcastInDim S65536 ![] bcast_S_S65536 (constantI S_ 32 0#32))) (addi (m ((c.tc : Thread nD τ).loc main_arg1)) (broadcastInDim S65536 ![] bcast_S_S65536 (constantI S_ 32 1000#32))) (m ((c.tc : Thread nD τ).loc main_arg1)))))) (broadcastInDim S65536x1000 ![] bcast_S_S65536x1000 (constant S_ .f32 0x3E99999A#32))) (constant S_ .f32 0xFF800000#32) reducesTo_S65536x1000_S65536_d1 h_S_)))))) (constant S_ .f32 0x00000000#32) reducesTo_S65536x1000_S65536_d1 h_S_)))) (subf (subf (m ((c.tc : Thread nD τ).loc main_arg0)) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (m ((c.tc : Thread nD τ).loc main_arg0)) (constant S_ .f32 0xFF800000#32) reducesTo_S65536x1000_S65536_d1 h_S_))))) (broadcastInDim S65536x1000 ![0, 1] bcast_S65536x1_S65536x1000_0_1 (Host.log (broadcastInDim S65536x1 ![0] bcast_S65536_S65536x1_0 (Host.reduceAdd (Host.exp (subf (m ((c.tc : Thread nD τ).loc main_arg0)) (broadcastInDim S65536x1000 ![0, 1] bcast_S65536x1_S65536x1000_0_1 (broadcastInDim S65536x1 ![0] bcast_S65536_S65536x1_0 (maximumf (broadcastInDim S65536 ![] bcast_S_S65536 (constant S_ .f32 0xFF800000#32)) (Host.reduce FloatOps.maximumf (m ((c.tc : Thread nD τ).loc main_arg0)) (constant S_ .f32 0xFF800000#32) reducesTo_S65536x1000_S65536_d1 h_S_)))))) (constant S_ .f32 0x00000000#32) reducesTo_S65536x1000_S65536_d1 h_S_)))))) (constant S_ .f32 0x00000000#32) reducesTo_S65536x1000_S65536_d1 h_S_) (constant S_ .f32 0x00000000#32) reducesTo_S65536_S_d0 h_S_) (constant S_ .f32 0x47800000#32))

set_option maxRecDepth 8192 in
set_option maxHeartbeats 2000000 in
/-- The fold of the operations' results over the launch contents, at the result buffer, is that composition. -/
theorem after_eq (m : (ℓ : Loc nD τ sig) → Buf (Elt F) ℓ) (c : Dev nD) :
    after (ops (F := F)) (launchContents m c) (Proc.devRef .tc main_v26) = res_main_v26 m c := by
  after_results_simp <;> rfl <;> (unfold res_main_v26; rfl)

set_option maxRecDepth 8192 in
/-- The composition is the last stage of the operation-by-operation reading. -/
theorem res_eq (m : (ℓ : Loc nD τ sig) → Buf (Elt F) ℓ) (c : Dev nD) :
    res_main_v26 m c = ReadP.val_main_v26 (F := F) (m ((c.tc : Thread nD τ).loc main_arg0)) (m ((c.tc : Thread nD τ).loc main_arg1)) (m ((c.tc : Thread nD τ).loc main_arg2)) := by
  unfold res_main_v26; rfl

set_option maxRecDepth 8192 in
set_option maxHeartbeats 2000000 in
/-- On every device, for any float values, from any memory with zero counters: every weakly fair execution of the
    reference terminates with the result buffer at the last stage of its reading and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = ReadP.val_main_v26 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c main_v26).trans (after_eq m c)).trans (res_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.Spec.lean ====
/-
  The mathematics of the certificate, free of any program.

  Both programs compute a soft-label cross entropy.  Write, for a row a : Fin n → ℝ and any real shift M,
      Z a M     = ∑ₖ exp (a k − M)                         (positive)
      sm a M c  = exp (a c − M) / Z a M                    (the softmax weight of class c; the weights sum to 1)
      lse x M   = M + log (Z x M)                          (the log-sum-exp of a row of logits).
  The kernel forms, per sample,   perRow = lse x Mx − ∑_c sm a Ma c · x c,
  the reference forms             refRow = ∑_c sm a Ma c · ((x c − Mx) − log (Z x Mx)),
  and because the weights sum to one, refRow = −perRow: this is the only law the two sides need.  It holds for EVERY
  real shift, so nothing has to be known about the running maxima except that they are real numbers.

  The rest of the file is bookkeeping on the extended reals: the maximum of finitely many reals, folded from −∞, is a
  real (rmax); a finite sum of real numbers read in the extended reals is the real sum; and a sum over 65536 samples is
  the sum over 2 cores × 32 tiles × 1024 rows.
-/
import Mathlib.Analysis.SpecialFunctions.Log.Basic
import Mathlib.Data.EReal.Operations
import Mathlib.Algebra.BigOperators.Fin
import Mathlib.Algebra.BigOperators.Field

noncomputable section

namespace Cert.Spec

open Finset

variable {n : ℕ}

/-! ## Rows -/

/-- The partition sum of a row at shift M. -/
def Z (a : Fin n → ℝ) (M : ℝ) : ℝ := ∑ k, Real.exp (a k - M)

theorem Z_pos (hn : 0 < n) (a : Fin n → ℝ) (M : ℝ) : 0 < Z a M := by
  unfold Z
  haveI : Nonempty (Fin n) := ⟨⟨0, hn⟩⟩
  exact Finset.sum_pos (fun k _ => Real.exp_pos _) Finset.univ_nonempty

/-- The softmax weight of class c. -/
def sm (a : Fin n → ℝ) (M : ℝ) (c : Fin n) : ℝ := Real.exp (a c - M) / Z a M

/-- The weights of a row sum to one. -/
theorem sm_sum (hn : 0 < n) (a : Fin n → ℝ) (M : ℝ) : ∑ c, sm a M c = 1 := by
  unfold sm
  rw [← Finset.sum_div]
  exact div_self (Z_pos hn a M).ne'

/-- The log-sum-exp of a row, computed with the shift M taken out. -/
def lse (x : Fin n → ℝ) (M : ℝ) : ℝ := M + Real.log (Z x M)

/-- What the kernel adds up for one sample: log-sum-exp of the logits less the weighted logits. -/
def perRow (x a : Fin n → ℝ) (Mx Ma : ℝ) : ℝ := lse x Mx - ∑ c, sm a Ma c * x c

/-- What the reference adds up for one sample: the weights against the log-softmax of the logits. -/
def refRow (x a : Fin n → ℝ) (Mx Ma : ℝ) : ℝ := ∑ c, sm a Ma c * ((x c - Mx) - Real.log (Z x Mx))

/-- THE LAW: the weights summing to one, the reference's row is the negative of the kernel's. -/
theorem refRow_eq (hn : 0 < n) (x a : Fin n → ℝ) (Mx Ma : ℝ) : refRow x a Mx Ma = -(perRow x a Mx Ma) := by
  unfold refRow perRow lse
  have h1 : ∀ c, sm a Ma c * ((x c - Mx) - Real.log (Z x Mx))
      = sm a Ma c * x c - sm a Ma c * (Mx + Real.log (Z x Mx)) := fun c => by ring
  simp only [h1, Finset.sum_sub_distrib, ← Finset.sum_mul, sm_sum hn]
  ring

/-! ## The extended reals -/

/-- A finite sum of reals, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a row of reals folded from −∞, as an extended real. -/
def emax (x : Fin n → ℝ) : EReal := Finset.univ.fold max (⊥ : EReal) (fun k => ((x k : ℝ) : EReal))

/-- The same as a real number (meaningful for a nonempty row). -/
def rmax (x : Fin n → ℝ) : ℝ := (emax x).toReal

/-- The folded maximum of a nonempty row of reals is a real. -/
theorem emax_eq (hn : 0 < n) (x : Fin n → ℝ) : emax x = ((rmax x : ℝ) : EReal) := by
  unfold rmax
  refine (EReal.coe_toReal ?_ ?_).symm
  · -- below +∞: −∞ and every entry are
    refine ne_of_lt ?_
    unfold emax
    rw [Finset.fold_max_lt]
    exact ⟨bot_lt_top, fun k _ => EReal.coe_lt_top _⟩
  · -- above −∞: entry 0 is
    refine ne_of_gt ?_
    unfold emax
    rw [Finset.lt_fold_max]
    exact Or.inr ⟨⟨0, hn⟩, Finset.mem_univ _, EReal.bot_lt_coe _⟩

/-! ## Samples: 65536 = 2 cores × 32 tiles × 1024 rows -/

/-- Sample number of row r of tile j of core q. -/
def sampleOf (q : Fin 2) (j : Fin 32) (r : Fin 1024) : Fin 65536 :=
  ⟨(q.val * 32 + j.val) * 1024 + r.val, by have := q.isLt; have := j.isLt; have := r.isLt; omega⟩

/-- A sum over the samples is the sum over cores, tiles and rows. -/
theorem sum_samples (f : Fin 65536 → ℝ) :
    ∑ b, f b = ∑ q : Fin 2, ∑ j : Fin 32, ∑ r : Fin 1024, f (sampleOf q j r) := by
  have e1 : ∑ b : Fin 65536, f b = ∑ p : Fin 64 × Fin 1024, f ⟨p.1.val * 1024 + p.2.val, by
      have := p.1.isLt; have := p.2.isLt; omega⟩ := by
    refine (Fintype.sum_equiv (finProdFinEquiv (m := 64) (n := 1024)) _ _ fun p => ?_).symm
    refine congrArg f (Fin.ext ?_)
    show p.1.val * 1024 + p.2.val = p.2.val + 1024 * p.1.val
    omega
  have e2 : ∀ g : Fin 64 → ℝ, ∑ t : Fin 64, g t = ∑ p : Fin 2 × Fin 32, g ⟨p.1.val * 32 + p.2.val, by
      have := p.1.isLt; have := p.2.isLt; omega⟩ := fun g => by
    refine (Fintype.sum_equiv (finProdFinEquiv (m := 2) (n := 32)) _ _ fun p => ?_).symm
    refine congrArg g (Fin.ext ?_)
    show p.1.val * 32 + p.2.val = p.2.val + 32 * p.1.val
    omega
  rw [e1, Fintype.sum_prod_type, e2, Fintype.sum_prod_type]
  rfl

/-! ## The loss -/

/-- Row k of −S / d: the scaled negated similarities a softmax is taken of (d the temperature). -/
def arow (s : Fin 1000 → Fin 1000 → ℝ) (d : ℝ) (k : Fin 1000) : Fin 1000 → ℝ := fun c => -(s k c) * (1 / d)

/-- Sample b's term: the kernel's form, the softmax row chosen by the sample's label. -/
def rowLoss (x : Fin 65536 → Fin 1000 → ℝ) (s : Fin 1000 → Fin 1000 → ℝ) (d : ℝ) (t : Fin 65536 → Fin 1000)
    (b : Fin 65536) : ℝ :=
  perRow (x b) (arow s d (t b)) (rmax (x b)) (rmax (arow s d (t b)))

/-- The sum of the samples' terms (the mean's numerator). -/
def total (x : Fin 65536 → Fin 1000 → ℝ) (s : Fin 1000 → Fin 1000 → ℝ) (d : ℝ) (t : Fin 65536 → Fin 1000) : ℝ :=
  ∑ b, rowLoss x s d t b

end Cert.Spec

end
-- ==== Proof.RefValue.lean ====
/-
  The reference's result as a real number: the mean over the samples of the soft-label cross entropy.

  For sample b the reference picks row t b of the similarities S (a gather whose start index is the label, wrapped
  round if negative and then clamped into [0, 999]: a class number is neither negative nor above 999, so it is kept),
  forms the row a = −S(t b, ·) / d and its softmax weights  w_c = exp (a_c − M) / ∑ₖ exp (a_k − M),  M the row's
  maximum, and the log-softmax of the logits  l_c = (x_c − m) − log ∑ₖ exp (x_k − m),  m their maximum. Sample b
  contributes ∑_c w_c · l_c; the contributions are added, the sum is divided by 65536 and negated.

  On real inputs every stage is a real number: the maximum of finitely many reals folded from −∞ is a real, the
  partition sums are positive (so the quotient and the logarithm are the real ones), and a finite sum of reals is
  the real sum. Each stage is read at one index as a real expression, in program order. Sample b's sum is the
  reference's row form, the negative of the sample's loss term because the weights sum to one; so the sum over the
  samples is −total, and −(−total / 65536) = total · (1 / 65536).
-/
import proofs.«402906_j20048907337768_2_alg».proof.Proof.RefRead
import proofs.«402906_j20048907337768_2_alg».proof.Proof.Spec
import Idealize.ShloMosaic.Lib.ValueIdx
import Idealize.ShloMosaic.Lib.ValueIdxRank1
import Idealize.ShloMosaic.PureOps.Ideal.Laws
import Idealize.ShloMosaic.Lib.StableHlo.Predicate

noncomputable section

namespace Cert.ReferenceIdeal.RefV

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The labels and the gather -/

/-- The gather's dimension numbers: rows of a 1000 × 1000 table picked by a column of 65536 start indices. -/
abbrev GD := gather_S1000x1000_S65536x1_S65536x1000_1_0_n_n_0_1_11000

/-- The gather read at (b, c): axis 0 of the table is collapsed and start-indexed, so its coordinate is sample b's start
    index read signed and clamped into [0, 999]; axis 1 is the one offset axis, so its coordinate is c. -/
theorem gather_at {α : Type} {w : Nat} (tab : S1000x1000.Idx → α) (idx : IVec S65536x1 w) (b : Fin 65536) (c : Fin 1000) :
    Host.gather GD tab idx (ix2 b c)
      = tab (ix2 (⟨min (idx (ix2 b (0 : Fin 1))).toInt.toNat 999, by omega⟩ : Fin 1000) c) := by
  unfold Host.gather
  congr 1
  funext a
  refine Fin.ext ?_
  match a with
  | ⟨0, _⟩ =>
    show GD.start (ix2 b c) idx 0 + GD.batchCoord (ix2 b c) 0 + GD.offCoord (ix2 b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 b c) ⟨List.idxOf (0 : Fin 2) GD.startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show GD.start (ix2 b c) idx 1 + GD.batchCoord (ix2 b c) 1 + GD.offCoord (ix2 b c) 1 = _
    rw [GatherDims.batchCoord_eq_zero _ _ _ List.not_mem_nil]
    unfold GatherDims.start
    rw [dif_neg (show ¬ (1 : Fin 2) ∈ GD.startIndexMap by decide)]
    unfold GatherDims.offCoord
    rw [dif_pos (show (1 : Fin 2) ∈ GD.sKept by decide)]
    have key : ∀ (n : Nat) (hn : n = 0) (h : n < GD.offsetDims.length), GD.offsetDims[n]'h = (1 : Fin 2) := by
      intro n hn h; subst hn; rfl
    rw [key _ (by decide)]
    simp only [Nat.zero_add]

/-- The label word of a class number is not negative, so the wrap-around select keeps it. -/
theorem label_at (x1 : (⟨S65536, .i32⟩ : BufTy).Contents (Elt Ideal)) (b : Fin 65536) (k : Nat) (hk : k < 1000)
    (h : x1 (ix1 b) = BitVec.ofNat 32 k) :
    val_main_v5 (F := Ideal) x1 (ix2 b (0 : Fin 1)) = BitVec.ofNat 32 k := by
  have e5 : idx_main_v5 (ix2 b (0 : Fin 1)) = ix1 b := funext fun a => Fin.ext (by match a with | ⟨0, _⟩ => rfl)
  rw [val_main_v5_apply, e5, val_main_v4_apply, val_main_v1_apply, val_main_v0_apply, val_main_c_apply, h]
  have hz : IntOp.cmpi .slt (BitVec.ofNat 32 k) 0#32 = 0#1 := by
    refine eq_zero_of_ne_one fun h1 => ?_
    have := (Predicate.slt_iff_toNat (a := BitVec.ofNat 32 k) (b := 0#32)
      (by simp only [BitVec.toNat_ofNat]; omega) (by decide)).mp h1
    simp at this
  rw [hz, select_zero]

/-- A class number read signed and clamped into [0, 999] is itself. -/
theorem clamp_label (k : Nat) (hk : k < 1000) : min (BitVec.ofNat 32 k).toInt.toNat 999 = k := by
  rw [Predicate.toInt_ofNat_small k (by omega), Int.toNat_natCast]
  omega

/-! ## A row's maximum -/

/-- The word 0xFF800000 is −∞. -/
theorem ofBits_negInf : Ideal.ofBits .f32 0xFF800000#32 = (⊥ : EReal) := by simp [Ideal.ofBits, Ideal.ieee]

/-- Dropping axis 1 of a 65536 × 1000 array leaves the 65536 rows. -/
theorem reduces_d1 : S65536x1000.Reduces [1] S65536 := by decide

/-- A maximum-reduction along a row whose entries are the reals r, started from −∞, is the row's greatest entry. -/
theorem rowmax_at (y : (⟨S65536x1000, .f32⟩ : BufTy).Contents (Elt Ideal)) (init : (⟨S_, .f32⟩ : BufTy).Contents (Elt Ideal))
    (hi : init (Shape.Idx.first h_S_) = (⊥ : EReal)) (r : Fin 1000 → ℝ) (b : Fin 65536)
    (hy : ∀ c, y (ix2 b c) = ((r c : ℝ) : EReal)) :
    Host.reduce (FloatOps.maximumf (F := Ideal) (φ := .f32)) y init reducesTo_S65536x1000_S65536_d1 h_S_ (ix1 b)
      = ((Cert.Spec.rmax r : ℝ) : EReal) := by
  rw [Host.reduce_eq_fold_single _ y init reducesTo_S65536x1000_S65536_d1 reduces_d1 h_S_ (ix1 b), hi,
    ← Cert.Spec.emax_eq (by norm_num) r]
  have hrow : (y ∘ reduces_d1.lift (ix1 b)) = fun k : Fin 1000 => ((r k : ℝ) : EReal) := by
    funext k
    rw [← hy k]
    exact congrArg y (funext fun a => Fin.ext (by match a with | ⟨0, _⟩ => rfl | ⟨1, _⟩ => rfl))
  rw [hrow]
  rfl

/-! ## The similarity side: the softmax weights -/

section Sim

variable (x1 : (⟨S65536, .i32⟩ : BufTy).Contents (Elt Ideal)) (x2 : (⟨S1000x1000, .f32⟩ : BufTy).Contents (Elt Ideal))
  (s : Fin 1000 → Fin 1000 → ℝ) (t : Fin 65536 → Fin 1000) (d : ℝ) (hd : d ≠ 0)
  (ht : ∀ b, x1 (ix1 b) = BitVec.ofNat 32 (t b).val)
  (hs : ∀ k c, x2 (ix2 k c) = ((s k c : ℝ) : EReal))
  (hlit : Ideal.ofBits .f32 0x3E99999A#32 = ((d : ℝ) : EReal))
include hd ht hs hlit

/-- The scaled negated similarities: sample b's row is row t b of −S / d. -/
theorem A_at (b : Fin 65536) (c : Fin 1000) :
    val_main_v9 (F := Ideal) x1 x2 (ix2 b c) = ((Cert.Spec.arow s d (t b) c : ℝ) : EReal) := by
  have hk := (t b).isLt
  have hrow : (⟨min (val_main_v5 (F := Ideal) x1 (ix2 b (0 : Fin 1))).toInt.toNat 999, by omega⟩ : Fin 1000) = t b := by
    refine Fin.ext ?_
    show min (val_main_v5 (F := Ideal) x1 (ix2 b (0 : Fin 1))).toInt.toNat 999 = (t b).val
    rw [label_at x1 b _ hk (ht b)]
    exact clamp_label _ hk
  rw [val_main_v9_apply, val_main_v7_apply, val_main_v8_apply, val_main_cst_apply]
  unfold val_main_v6
  rw [gather_at, hrow, hs]
  simp only [Ideal.hostDivf_def, Ideal.hostNegf_def, Ideal.negf_def, Ideal.ofBits_def, hlit]
  rw [Ideal.div_coe hd, ← EReal.coe_neg, ← EReal.coe_mul]
  rfl

/-- Its running maximum, started from −∞, is the row's greatest entry. -/
theorem M_at (b : Fin 65536) :
    val_main_v12 (F := Ideal) x1 x2 (ix1 b) = ((Cert.Spec.rmax (Cert.Spec.arow s d (t b)) : ℝ) : EReal) := by
  rw [val_main_v12_apply, val_main_v11_apply, val_main_cst_2_apply]
  unfold val_main_v10
  rw [rowmax_at _ _ (by rw [val_main_cst_1_apply]; exact ofBits_negInf) (Cert.Spec.arow s d (t b)) b
    (fun c => A_at x1 x2 s t d hd ht hs hlit b c)]
  simp only [Ideal.maximumf_def, Ideal.ofBits_def, ofBits_negInf]
  exact max_eq_right bot_le

/-- The shifted exponentials. -/
theorem E_at (b : Fin 65536) (c : Fin 1000) :
    val_main_v16 (F := Ideal) x1 x2 (ix2 b c)
      = ((Real.exp (Cert.Spec.arow s d (t b) c - Cert.Spec.rmax (Cert.Spec.arow s d (t b))) : ℝ) : EReal) := by
  have e : idx_main_v13 (idx_main_v14 (ix2 b c)) = ix1 b :=
    funext fun a => Fin.ext (by match a with | ⟨0, _⟩ => rfl)
  rw [val_main_v16_apply, val_main_v15_apply, val_main_v14_apply, val_main_v13_apply, e,
    A_at x1 x2 s t d hd ht hs hlit, M_at x1 x2 s t d hd ht hs hlit]
  simp only [Ideal.subf_def, Ideal.hostUnary_exp_def]
  rw [← EReal.coe_sub, Ideal.exp_coe]

/-- Their sum along the row is the partition sum. -/
theorem sumE_at (b : Fin 65536) :
    val_main_v17 (F := Ideal) x1 x2 (ix1 b)
      = ((Cert.Spec.Z (Cert.Spec.arow s d (t b)) (Cert.Spec.rmax (Cert.Spec.arow s d (t b))) : ℝ) : EReal) := by
  have e : ∀ k : Fin 1000, idx_main_v17 (ix1 b) k = ix2 b k := fun k =>
    funext fun a => Fin.ext (by match a with | ⟨0, _⟩ => rfl | ⟨1, _⟩ => rfl)
  rw [val_main_v17_apply, val_main_cst_3_apply]
  simp only [e, E_at x1 x2 s t d hd ht hs hlit b, Ideal.ofBits_def, Ideal.ofBits_zero_f32, zero_add, Cert.Spec.coe_sum]
  rfl

/-- The quotient is the softmax weight. -/
theorem soft_at (b : Fin 65536) (c : Fin 1000) :
    val_main_v20 (F := Ideal) x1 x2 (ix2 b c)
      = ((Cert.Spec.sm (Cert.Spec.arow s d (t b)) (Cert.Spec.rmax (Cert.Spec.arow s d (t b))) c : ℝ) : EReal) := by
  have e : idx_main_v18 (idx_main_v19 (ix2 b c)) = ix1 b :=
    funext fun a => Fin.ext (by match a with | ⟨0, _⟩ => rfl)
  rw [val_main_v20_apply, val_main_v19_apply, val_main_v18_apply, e,
    E_at x1 x2 s t d hd ht hs hlit, sumE_at x1 x2 s t d hd ht hs hlit]
  simp only [Ideal.hostDivf_def]
  rw [Ideal.div_coe (Cert.Spec.Z_pos (by norm_num) _ _).ne', ← EReal.coe_mul]
  congr 1
  unfold Cert.Spec.sm
  exact (div_eq_mul_one_div _ _).symm

end Sim

/-! ## The logit side: the log-softmax -/

section Logit

variable (x0 : (⟨S65536x1000, .f32⟩ : BufTy).Contents (Elt Ideal)) (x : Fin 65536 → Fin 1000 → ℝ)
  (hx : ∀ b c, x0 (ix2 b c) = ((x b c : ℝ) : EReal))
include hx

/-- The logits' running maximum, started from −∞, is the row's greatest logit. -/
theorem m_at (b : Fin 65536) :
    val_main_call0_v2 (F := Ideal) x0 (ix1 b) = ((Cert.Spec.rmax (x b) : ℝ) : EReal) := by
  rw [val_main_call0_v2_apply, val_main_call0_v1_apply, val_main_call0_cst_0_apply]
  unfold val_main_call0_v0
  rw [rowmax_at _ _ (by rw [val_main_call0_cst_apply]; exact ofBits_negInf) (x b) b (hx b)]
  simp only [Ideal.maximumf_def, Ideal.ofBits_def, ofBits_negInf]
  exact max_eq_right bot_le

/-- The shifted logits. -/
theorem shift_at (b : Fin 65536) (c : Fin 1000) :
    val_main_call0_v5 (F := Ideal) x0 (ix2 b c) = ((x b c - Cert.Spec.rmax (x b) : ℝ) : EReal) := by
  have e : idx_main_call0_v3 (idx_main_call0_v4 (ix2 b c)) = ix1 b :=
    funext fun a => Fin.ext (by match a with | ⟨0, _⟩ => rfl)
  rw [val_main_call0_v5_apply, val_main_call0_v4_apply, val_main_call0_v3_apply, e, hx, m_at x0 x hx]
  simp only [Ideal.subf_def]
  rw [← EReal.coe_sub]

/-- The sum of their exponentials is the logits' partition sum. -/
theorem sumX_at (b : Fin 65536) :
    val_main_call0_v7 (F := Ideal) x0 (ix1 b) = ((Cert.Spec.Z (x b) (Cert.Spec.rmax (x b)) : ℝ) : EReal) := by
  have e : ∀ k : Fin 1000, idx_main_call0_v7 (ix1 b) k = ix2 b k := fun k =>
    funext fun a => Fin.ext (by match a with | ⟨0, _⟩ => rfl | ⟨1, _⟩ => rfl)
  rw [val_main_call0_v7_apply, val_main_call0_cst_1_apply]
  simp only [e, val_main_call0_v6_apply, shift_at x0 x hx b, Ideal.hostUnary_exp_def, Ideal.exp_coe, Ideal.ofBits_def,
    Ideal.ofBits_zero_f32, zero_add, Cert.Spec.coe_sum]
  rfl

/-- The log-softmax: the shifted logit less the logarithm of the (positive) partition sum. -/
theorem lp_at (b : Fin 65536) (c : Fin 1000) :
    val_main_v21 (F := Ideal) x0 (ix2 b c)
      = (((x b c - Cert.Spec.rmax (x b)) - Real.log (Cert.Spec.Z (x b) (Cert.Spec.rmax (x b))) : ℝ) : EReal) := by
  have e : idx_main_call0_v8 (idx_main_call0_v10 (ix2 b c)) = ix1 b :=
    funext fun a => Fin.ext (by match a with | ⟨0, _⟩ => rfl)
  rw [val_main_v21_apply, val_main_call0_v10_apply, val_main_call0_v9_apply, val_main_call0_v8_apply, e,
    shift_at x0 x hx, sumX_at x0 x hx]
  simp only [Ideal.hostUnary_log_def, Ideal.subf_def]
  rw [Ideal.log_coe, if_neg (not_le.mpr (Cert.Spec.Z_pos (by norm_num) _ _)), ← EReal.coe_sub]

end Logit

/-! ## The two sides together: a sample's sum, the sum over the samples -/

/-- A sum over the 65536 rank-1 indices is the sum over the samples. -/
theorem sum_rows (g : S65536.Idx → EReal) : ∑ j : S65536.Idx, g j = ∑ b : Fin 65536, g (ix1 b) :=
  (Equiv.sum_comp (idxEquiv1 (n := 65536)).symm g).symm

section Both

variable (x0 : (⟨S65536x1000, .f32⟩ : BufTy).Contents (Elt Ideal)) (x1 : (⟨S65536, .i32⟩ : BufTy).Contents (Elt Ideal))
  (x2 : (⟨S1000x1000, .f32⟩ : BufTy).Contents (Elt Ideal))
  (x : Fin 65536 → Fin 1000 → ℝ) (s : Fin 1000 → Fin 1000 → ℝ) (t : Fin 65536 → Fin 1000) (d : ℝ) (hd : d ≠ 0)
  (hx : ∀ b c, x0 (ix2 b c) = ((x b c : ℝ) : EReal))
  (ht : ∀ b, x1 (ix1 b) = BitVec.ofNat 32 (t b).val)
  (hs : ∀ k c, x2 (ix2 k c) = ((s k c : ℝ) : EReal))
  (hlit : Ideal.ofBits .f32 0x3E99999A#32 = ((d : ℝ) : EReal))
include hd hx ht hs hlit

/-- Weight times log-softmax. -/
theorem prod_at (b : Fin 65536) (c : Fin 1000) :
    val_main_v22 (F := Ideal) x0 x1 x2 (ix2 b c)
      = ((Cert.Spec.sm (Cert.Spec.arow s d (t b)) (Cert.Spec.rmax (Cert.Spec.arow s d (t b))) c
          * ((x b c - Cert.Spec.rmax (x b)) - Real.log (Cert.Spec.Z (x b) (Cert.Spec.rmax (x b)))) : ℝ) : EReal) := by
  rw [val_main_v22_apply, soft_at x1 x2 s t d hd ht hs hlit, lp_at x0 x hx]
  simp only [Ideal.mulf_def]
  rw [← EReal.coe_mul]

/-- Sample b's sum is the reference's row form, which is the negative of the sample's loss term. -/
theorem row_at (b : Fin 65536) :
    val_main_v23 (F := Ideal) x0 x1 x2 (ix1 b) = ((-(Cert.Spec.rowLoss x s d t b) : ℝ) : EReal) := by
  have e : ∀ k : Fin 1000, idx_main_v23 (ix1 b) k = ix2 b k := fun k =>
    funext fun a => Fin.ext (by match a with | ⟨0, _⟩ => rfl | ⟨1, _⟩ => rfl)
  rw [val_main_v23_apply, val_main_cst_4_apply]
  simp only [e, prod_at x0 x1 x2 x s t d hd hx ht hs hlit b, Ideal.ofBits_def, Ideal.ofBits_zero_f32, zero_add,
    Cert.Spec.coe_sum]
  unfold Cert.Spec.rowLoss
  rw [← Cert.Spec.refRow_eq (by norm_num)]
  rfl

/-- The sum over the samples is the negative of the total. -/
theorem sum_at (i : S_.Idx) :
    val_main_v24 (F := Ideal) x0 x1 x2 i = ((-(Cert.Spec.total x s d t) : ℝ) : EReal) := by
  rw [val_main_v24_apply, val_main_cst_5_apply, sum_rows]
  simp only [row_at x0 x1 x2 x s t d hd hx ht hs hlit, Ideal.ofBits_def, Ideal.ofBits_zero_f32, zero_add,
    Cert.Spec.coe_sum, Finset.sum_neg_distrib]
  rfl

end Both

/-! ## The mean -/

/-- On real logits and similarities and labels below 1000, the reference's result is the total of the samples'
    terms over 65536. -/
theorem value (x0 : (⟨S65536x1000, .f32⟩ : BufTy).Contents (Elt Ideal)) (x1 : (⟨S65536, .i32⟩ : BufTy).Contents (Elt Ideal))
    (x2 : (⟨S1000x1000, .f32⟩ : BufTy).Contents (Elt Ideal))
    (x : Fin 65536 → Fin 1000 → ℝ) (s : Fin 1000 → Fin 1000 → ℝ) (t : Fin 65536 → Fin 1000) (d : ℝ) (hd : d ≠ 0)
    (hx : ∀ b c, x0 (ix2 b c) = ((x b c : ℝ) : EReal))
    (ht : ∀ b, x1 (ix1 b) = BitVec.ofNat 32 (t b).val)
    (hs : ∀ k c, x2 (ix2 k c) = ((s k c : ℝ) : EReal))
    (hlit : Ideal.ofBits .f32 0x3E99999A#32 = ((d : ℝ) : EReal))
    (hN : Ideal.ofBits .f32 0x47800000#32 = (((65536 : ℝ)) : EReal)) :
    val_main_v26 (F := Ideal) x0 x1 x2 = fun _ => ((Cert.Spec.total x s d t * (1 / 65536) : ℝ) : EReal) := by
  funext i
  rw [val_main_v26_apply, val_main_v25_apply, val_main_cst_6_apply, sum_at x0 x1 x2 x s t d hd hx ht hs hlit]
  simp only [Ideal.hostDivf_def, Ideal.hostNegf_def, Ideal.negf_def, Ideal.ofBits_def, hN]
  rw [Ideal.div_coe (by norm_num), ← EReal.coe_mul, ← EReal.coe_neg]
  congr 1
  ring

end Cert.ReferenceIdeal.RefV

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KernelPay.lean ====
/-
  One tile of the kernel body, as arithmetic: what the body adds to its running scalar at a grid point.

  A tile is 1024 rows of 1000 logits x(r, ·), a label t(r) < 1000 per row, and a 1000 × 1000 table T of reals.
  The body forms the indicator block  onehot(r, k) = [t(r) = k]  and multiplies it by T, so that the soft label of
  row r at class c is  Σ_k [t(r) = k] · T(k, c) = T(t(r), c):  the indicator keeps one term of the sum, and the
  others vanish because 0 · y = 0 for every extended real y.  It takes the row maximum M(r) folded from −∞, which
  for real logits is a real number; the partition sum  Z(r) = Σ_c exp (x(r, c) − M(r)),  a sum of positive reals and
  hence positive, so that its logarithm is the real logarithm; and the row's term
      per(r) = M(r) + log Z(r) − Σ_c T(t(r), c) · x(r, c).
  Every quantity is a real number read in the extended reals, where finite sums, differences and products of reals
  are the reals' own.  The value stored is the scalar already in the scratch plus  Σ_r per(r).

  The other two stored values are layout only: a zero spread over a one-entry block, and the scratch's one entry
  read as a block with one more unit axis.
-/
import proofs.«402906_j20048907337768_2_alg».proof.Proof.Gen.KernelIdeal.Skeleton
import proofs.«402906_j20048907337768_2_alg».proof.Proof.LibColumns
import proofs.«402906_j20048907337768_2_alg».proof.Proof.Spec
import Idealize.ShloMosaic.Lib.ValueIdx
import Idealize.ShloMosaic.Lib.Pipeline.Value
import Idealize.ShloMosaic.PureOps.Ideal.Laws
import Idealize.ShloMosaic.Lib.KernelVsHost
import Idealize.ShloMosaic.Lib.StableHlo.Predicate

noncomputable section

namespace Cert.KernelIdeal.Pay

open Cert.KernelIdeal Cert.KernelIdeal.Gen Idealize.ShloMosaic Idealize.ShloMosaic.ValueIdx

/-- One tile's contribution: over its 1024 rows, the log-sum-exp of the row's logits less the logits weighted by
    the table row the row's label selects. -/
def tileSum (xr : Fin 1024 → Fin 1000 → ℝ) (tr : Fin 1000 → Fin 1000 → ℝ) (tt : Fin 1024 → Fin 1000) : ℝ :=
  ∑ r, (Cert.Spec.lse (xr r) (Cert.Spec.rmax (xr r)) - ∑ c, tr (tt r) c * xr r c)

/-- The indicator block: entry (r, k) is 1 when row r's label word equals k, else 0. -/
def hot (v3 : Vec Ideal S1024x1 .i32) : FVec Ideal S1024x1000 .bf16 :=
  truncf .bf16 (sitofp .f32 (extui 32 (cmpi .eq
    (broadcastTo S1024x1000 (shapeCast S1024x1 v3 shapeCasts_S1024x1_S1024x1 : IVec S1024x1 32) broadcasts_S1024x1_S1024x1000)
    (iota .tc S1024x1000 32 [1] iota_S1024x1000_d1_w32)) natLt_1_32)) bitsLt_bf16_f32

/-- The soft labels: the indicator block times the table. -/
def soft (v3 : Vec Ideal S1024x1 .i32) (v11 : Vec Ideal S1000x1000 .bf16) : FVec Ideal S1024x1000 .f32 :=
  matmul dot_S1024x1000_S1000x1000_S1024x1000_1_0_0_1_n_n none (hot v3)
    (shapeCast S1000x1000 v11 shapeCasts_S1000x1000_S1000x1000 : FVec Ideal S1000x1000 .bf16)
    (constant (F := Ideal) S1024x1000 .f32 0x00000000#32)

/-- The column of row maxima. -/
def rowMax (v14 : Vec Ideal S1024x1000 .f32) : FVec Ideal S1024x1 .f32 :=
  shapeCast S1024x1 (multiReduction (F := Ideal) .maximumf [1] S1024 v14 0xFF800000#32 reduces_S1024x1000_S1024 (.inl rfl) rfl : FVec Ideal S1024 .f32)
    shapeCasts_S1024_S1024x1

/-- The column of partition sums at the row maximum. -/
def rowZ (v14 : Vec Ideal S1024x1000 .f32) : FVec Ideal S1024x1 .f32 :=
  shapeCast S1024x1 (multiReduction (F := Ideal) .add [1] S1024
      (exp (subf v14 (broadcastTo S1024x1000 (rowMax v14) broadcasts_S1024x1_S1024x1000)))
      0x00000000#32 reduces_S1024x1000_S1024 (.inl rfl) rfl : FVec Ideal S1024 .f32)
    shapeCasts_S1024_S1024x1

/-- The column of weighted sums of logits. -/
def rowDot (v3 : Vec Ideal S1024x1 .i32) (v11 : Vec Ideal S1000x1000 .bf16) (v14 : Vec Ideal S1024x1000 .f32) :
    FVec Ideal S1024x1 .f32 :=
  shapeCast S1024x1 (multiReduction (F := Ideal) .add [1] S1024 (mulf (soft v3 v11) v14)
      0x00000000#32 reduces_S1024x1000_S1024 (.inl rfl) rfl : FVec Ideal S1024 .f32)
    shapeCasts_S1024_S1024x1

/-- The column of per-row terms. -/
def perCol (v3 : Vec Ideal S1024x1 .i32) (v11 : Vec Ideal S1000x1000 .bf16) (v14 : Vec Ideal S1024x1000 .f32) :
    FVec Ideal S1024x1 .f32 :=
  subf (addf (rowMax v14) (log (rowZ v14))) (rowDot v3 v11 v14)

/-- The payload is the scratch value plus the column's total, through two casts that move nothing. -/
theorem pay3_unfold (v3 : Vec Ideal S1024x1 .i32) (v11 : Vec Ideal S1000x1000 .bf16) (v14 : Vec Ideal S1024x1000 .f32)
    (v30 : Vec Ideal S1x1 .f32) :
    (k0_pay3 (F := Ideal) v3 v11 v14 v30 : FVec Ideal S1x1 .f32)
      = shapeCast S1x1 (addf v30 (shapeCast S1x1
          (multiReduction (F := Ideal) .add [0] S1 (perCol v3 v11 v14) 0x00000000#32 reduces_S1024x1_S1 (.inl rfl) rfl : FVec Ideal S1 .f32)
          shapeCasts_S1_S1x1)) shapeCasts_S1x1_S1x1 := rfl

/-- The indicator at (r, k): the label column spread along the classes reads the label of row r, the class counter
    reads k, and two numbers below 2³² are equal as 32-bit words exactly when they are equal; the one-bit answer,
    widened and read as a number, is 1 or 0. -/
theorem hot_apply (v3 : Vec Ideal S1024x1 .i32) (tt : Fin 1024 → Fin 1000)
    (h3 : ∀ r : Fin 1024, v3 (ix2 r (0 : Fin 1)) = BitVec.ofNat 32 (tt r).val) (r : Fin 1024) (k : Fin 1000) :
    hot v3 (ix2 r k) = if tt r = k then (1 : EReal) else 0 := by
  have hb : broadcastTo S1024x1000 (shapeCast S1024x1 v3 shapeCasts_S1024x1_S1024x1 : IVec S1024x1 32)
      broadcasts_S1024x1_S1024x1000 (ix2 r k) = BitVec.ofNat 32 (tt r).val := by
    rw [Cert.Columns.broadcastTo_a1_ab_apply, shapeCast_self]
    exact h3 r
  have hi : iota .tc S1024x1000 32 [1] iota_S1024x1000_d1_w32 (ix2 r k) = BitVec.ofNat 32 k.val :=
    iota_single_apply .tc S1024x1000 32 1 iota_S1024x1000_d1_w32 (ix2 r k)
  show ((((IntOp.cmpi .eq
      (broadcastTo S1024x1000 (shapeCast S1024x1 v3 shapeCasts_S1024x1_S1024x1 : IVec S1024x1 32) broadcasts_S1024x1_S1024x1000 (ix2 r k))
      (iota .tc S1024x1000 32 [1] iota_S1024x1000_d1_w32 (ix2 r k))).setWidth 32).toInt : ℝ) : EReal) = _
  rw [hb, hi, toInt_setWidth_bit]
  by_cases h : tt r = k
  · rw [if_pos h, h, StableHlo.Predicate.cmpi_eq_iff.mpr rfl]
    simp
  · rw [if_neg h]
    have hne : ¬ (IntOp.cmpi .eq (BitVec.ofNat 32 (tt r).val) (BitVec.ofNat 32 k.val) = 1#1) := by
      rw [StableHlo.Predicate.cmpi_eq_iff]
      intro he
      apply h
      apply Fin.ext
      have := congrArg BitVec.toNat he
      simp only [BitVec.toNat_ofNat] at this
      have h1 := (tt r).isLt
      have h2 := k.isLt
      omega
    rw [eq_zero_of_ne_one hne]
    simp

/-! The product's operand indices at result index (r, c) and contraction position k are (r, k) and (k, c). -/

theorem lhs_dot_0 (j : S1024x1000.Idx) (k : dot_S1024x1000_S1000x1000_S1024x1000_1_0_0_1_n_n.contr.Idx) :
    (dot_S1024x1000_S1000x1000_S1024x1000_1_0_0_1_n_n.lhsIdx j k 0).val = (j 0).val := by
  simp [DotDims.lhsIdx, dot_S1024x1000_S1000x1000_S1024x1000_1_0_0_1_n_n]; rfl

theorem lhs_dot_1 (j : S1024x1000.Idx) (k : dot_S1024x1000_S1000x1000_S1024x1000_1_0_0_1_n_n.contr.Idx) :
    (dot_S1024x1000_S1000x1000_S1024x1000_1_0_0_1_n_n.lhsIdx j k 1).val = (k ⟨0, by decide⟩).val :=
  dot_S1024x1000_S1000x1000_S1024x1000_1_0_0_1_n_n.lhsIdx_val_of_single rfl j k

theorem rhs_dot_0 (j : S1024x1000.Idx) (k : dot_S1024x1000_S1000x1000_S1024x1000_1_0_0_1_n_n.contr.Idx) :
    (dot_S1024x1000_S1000x1000_S1024x1000_1_0_0_1_n_n.rhsIdx j k 0).val = (k ⟨0, by decide⟩).val :=
  dot_S1024x1000_S1000x1000_S1024x1000_1_0_0_1_n_n.rhsIdx_val_of_single rfl j k

theorem rhs_dot_1 (j : S1024x1000.Idx) (k : dot_S1024x1000_S1000x1000_S1024x1000_1_0_0_1_n_n.contr.Idx) :
    (dot_S1024x1000_S1000x1000_S1024x1000_1_0_0_1_n_n.rhsIdx j k 1).val = (j 1).val := by
  simp [DotDims.rhsIdx, dot_S1024x1000_S1000x1000_S1024x1000_1_0_0_1_n_n]; rfl

/-- The product into a zero accumulator, read at (r, c): the sum over the contracted class index. -/
theorem matmul_row (A : FVec Ideal S1024x1000 .bf16) (B : FVec Ideal S1000x1000 .bf16) (r : Fin 1024) (c : Fin 1000) :
    matmul dot_S1024x1000_S1000x1000_S1024x1000_1_0_0_1_n_n none A B
        (constant (F := Ideal) S1024x1000 .f32 0x00000000#32) (ix2 r c)
      = ∑ k : Fin 1000, A (ix2 r k) * B (ix2 k c) := by
  show FloatOps.matmul dot_S1024x1000_S1000x1000_S1024x1000_1_0_0_1_n_n none A B _ (ix2 r c) = _
  rw [Ideal.matmul_constant_zero_apply,
    ← Equiv.sum_comp (contrEquiv1 dot_S1024x1000_S1000x1000_S1024x1000_1_0_0_1_n_n 1000 rfl rfl).symm]
  refine Finset.sum_congr rfl fun k _ => ?_
  have c2 := contrEquiv1_symm_val dot_S1024x1000_S1000x1000_S1024x1000_1_0_0_1_n_n 1000 rfl rfl k
  have l2 : dot_S1024x1000_S1000x1000_S1024x1000_1_0_0_1_n_n.lhsIdx (ix2 r c)
      ((contrEquiv1 dot_S1024x1000_S1000x1000_S1024x1000_1_0_0_1_n_n 1000 rfl rfl).symm k) = ix2 r k := by
    funext ax; apply Fin.ext
    match ax with
    | ⟨0, _⟩ => exact lhs_dot_0 _ _
    | ⟨1, _⟩ => exact (lhs_dot_1 _ _).trans c2
  have r2 : dot_S1024x1000_S1000x1000_S1024x1000_1_0_0_1_n_n.rhsIdx (ix2 r c)
      ((contrEquiv1 dot_S1024x1000_S1000x1000_S1024x1000_1_0_0_1_n_n 1000 rfl rfl).symm k) = ix2 k c := by
    funext ax; apply Fin.ext
    match ax with
    | ⟨0, _⟩ => exact (rhs_dot_0 _ _).trans c2
    | ⟨1, _⟩ => exact rhs_dot_1 _ _
  rw [l2, r2]

/-- The soft label of row r at class c is the table's entry in the row the label names: the indicator picks one term. -/
theorem soft_apply (v3 : Vec Ideal S1024x1 .i32) (v11 : Vec Ideal S1000x1000 .bf16)
    (tr : Fin 1000 → Fin 1000 → ℝ) (tt : Fin 1024 → Fin 1000)
    (h3 : ∀ r : Fin 1024, v3 (ix2 r (0 : Fin 1)) = BitVec.ofNat 32 (tt r).val)
    (h11 : ∀ k c : Fin 1000, v11 (ix2 k c) = ((tr k c : ℝ) : EReal)) (r : Fin 1024) (c : Fin 1000) :
    soft v3 v11 (ix2 r c) = ((tr (tt r) c : ℝ) : EReal) := by
  unfold soft
  rw [matmul_row, shapeCast_self]
  have hterm : ∀ k : Fin 1000, hot v3 (ix2 r k) * v11 (ix2 k c)
      = if tt r = k then ((tr k c : ℝ) : EReal) else 0 := fun k => by
    rw [hot_apply v3 tt h3 r k, h11 k c]
    by_cases h : tt r = k
    · rw [if_pos h, if_pos h, one_mul]
    · rw [if_neg h, if_neg h, zero_mul]
  rw [Finset.sum_congr rfl fun k _ => hterm k, Finset.sum_ite_eq]
  simp

/-- The index a reduction over the class axis reads at row r and class k is (r, k). -/
theorem lift_row (r : Fin 1024) (k : Fin 1000) :
    reduces_S1024x1000_S1024.lift (ix1 r) k = ix2 r k := by
  funext ax; apply Fin.ext
  match ax with
  | ⟨0, _⟩ => rfl
  | ⟨1, _⟩ => rfl

/-- The word 0xFF800000 denotes −∞. -/
theorem ofBits_neg_inf : Ideal.ofBits .f32 0xFF800000#32 = (⊥ : EReal) := by
  simp [Ideal.ofBits, Ideal.ieee]

/-- A row's maximum, folded from −∞ over real logits, is the real number rmax of the row. -/
theorem rowMax_apply (v14 : Vec Ideal S1024x1000 .f32) (xr : Fin 1024 → Fin 1000 → ℝ)
    (h14 : ∀ (r : Fin 1024) (c : Fin 1000), v14 (ix2 r c) = ((xr r c : ℝ) : EReal)) (r : Fin 1024) (u : Fin 1) :
    rowMax v14 (ix2 r u) = ((Cert.Spec.rmax (xr r) : ℝ) : EReal) := by
  unfold rowMax
  rw [Cert.Columns.shapeCast_a_a1_apply]
  refine (Ideal.multiReduction_maximumf_single (φ := .f32) v14 0xFF800000#32 reduces_S1024x1000_S1024 (.inl rfl) rfl (ix1 r)).trans ?_
  rw [← Cert.Spec.emax_eq (by decide) (xr r)]
  show Finset.univ.fold max (Ideal.ofBits .f32 0xFF800000#32)
      (fun k : Fin 1000 => v14 (reduces_S1024x1000_S1024.lift (ix1 r) k)) = _
  rw [ofBits_neg_inf]
  unfold Cert.Spec.emax
  refine congrArg (Finset.univ.fold max (⊥ : EReal)) (funext fun k => ?_)
  rw [lift_row, h14]

/-- A row's partition sum at its maximum: every term is the exponential of a real, so the sum is the real sum. -/
theorem rowZ_apply (v14 : Vec Ideal S1024x1000 .f32) (xr : Fin 1024 → Fin 1000 → ℝ)
    (h14 : ∀ (r : Fin 1024) (c : Fin 1000), v14 (ix2 r c) = ((xr r c : ℝ) : EReal)) (r : Fin 1024) (u : Fin 1) :
    rowZ v14 (ix2 r u) = ((Cert.Spec.Z (xr r) (Cert.Spec.rmax (xr r)) : ℝ) : EReal) := by
  unfold rowZ
  rw [Cert.Columns.shapeCast_a_a1_apply]
  refine (Ideal.multiReduction_add_single (φ := .f32) _ 0x00000000#32 reduces_S1024x1000_S1024 (.inl rfl) rfl (ix1 r)).trans ?_
  unfold Cert.Spec.Z
  rw [← Cert.Spec.coe_sum]
  show (∑ k : Fin 1000, Ideal.exp (v14 (reduces_S1024x1000_S1024.lift (ix1 r) k)
      - broadcastTo S1024x1000 (rowMax v14) broadcasts_S1024x1_S1024x1000 (reduces_S1024x1000_S1024.lift (ix1 r) k))) = _
  refine Finset.sum_congr rfl fun k _ => ?_
  rw [lift_row, Cert.Columns.broadcastTo_a1_ab_apply, rowMax_apply v14 xr h14, h14, ← EReal.coe_sub, Ideal.exp_coe]

/-- A row's weighted sum of logits: each term is a product of two reals. -/
theorem rowDot_apply (v3 : Vec Ideal S1024x1 .i32) (v11 : Vec Ideal S1000x1000 .bf16) (v14 : Vec Ideal S1024x1000 .f32)
    (xr : Fin 1024 → Fin 1000 → ℝ) (tr : Fin 1000 → Fin 1000 → ℝ) (tt : Fin 1024 → Fin 1000)
    (h3 : ∀ r : Fin 1024, v3 (ix2 r (0 : Fin 1)) = BitVec.ofNat 32 (tt r).val)
    (h11 : ∀ k c : Fin 1000, v11 (ix2 k c) = ((tr k c : ℝ) : EReal))
    (h14 : ∀ (r : Fin 1024) (c : Fin 1000), v14 (ix2 r c) = ((xr r c : ℝ) : EReal)) (r : Fin 1024) (u : Fin 1) :
    rowDot v3 v11 v14 (ix2 r u) = ((∑ c, tr (tt r) c * xr r c : ℝ) : EReal) := by
  unfold rowDot
  rw [Cert.Columns.shapeCast_a_a1_apply]
  refine (Ideal.multiReduction_add_single (φ := .f32) _ 0x00000000#32 reduces_S1024x1000_S1024 (.inl rfl) rfl (ix1 r)).trans ?_
  rw [← Cert.Spec.coe_sum]
  show (∑ k : Fin 1000, soft v3 v11 (reduces_S1024x1000_S1024.lift (ix1 r) k)
      * v14 (reduces_S1024x1000_S1024.lift (ix1 r) k)) = _
  refine Finset.sum_congr rfl fun k _ => ?_
  rw [lift_row, soft_apply v3 v11 tr tt h3 h11, h14, ← EReal.coe_mul]

/-- The logarithm of a block, read at an index. -/
theorem log_apply {s : Shape} {φ : FTy} (a : FVec Ideal s φ) (i : s.Idx) : log a i = Ideal.log (a i) := rfl

/-- A row's term is a real number: the partition sum is positive, so its logarithm is the real logarithm. -/
theorem perCol_apply (v3 : Vec Ideal S1024x1 .i32) (v11 : Vec Ideal S1000x1000 .bf16) (v14 : Vec Ideal S1024x1000 .f32)
    (xr : Fin 1024 → Fin 1000 → ℝ) (tr : Fin 1000 → Fin 1000 → ℝ) (tt : Fin 1024 → Fin 1000)
    (h3 : ∀ r : Fin 1024, v3 (ix2 r (0 : Fin 1)) = BitVec.ofNat 32 (tt r).val)
    (h11 : ∀ k c : Fin 1000, v11 (ix2 k c) = ((tr k c : ℝ) : EReal))
    (h14 : ∀ (r : Fin 1024) (c : Fin 1000), v14 (ix2 r c) = ((xr r c : ℝ) : EReal)) (r : Fin 1024) (u : Fin 1) :
    perCol v3 v11 v14 (ix2 r u)
      = ((Cert.Spec.lse (xr r) (Cert.Spec.rmax (xr r)) - ∑ c, tr (tt r) c * xr r c : ℝ) : EReal) := by
  have hZ : ¬ Cert.Spec.Z (xr r) (Cert.Spec.rmax (xr r)) ≤ 0 :=
    not_le.mpr (Cert.Spec.Z_pos (n := 1000) (by decide) (xr r) (Cert.Spec.rmax (xr r)))
  unfold perCol
  rw [subf_apply, addf_apply, log_apply, rowMax_apply v14 xr h14, rowZ_apply v14 xr h14,
    rowDot_apply v3 v11 v14 xr tr tt h3 h11 h14]
  rw [Ideal.log_coe, if_neg hZ, ← EReal.coe_add, ← EReal.coe_sub]
  unfold Cert.Spec.lse
  rfl

/-- The index a reduction over the row axis of a column reads at row r is (r, 0). -/
theorem lift_col (p : Fin 1) (r : Fin 1024) :
    reduces_S1024x1_S1.lift (ix1 p) r = ix2 r p := by
  funext ax; apply Fin.ext
  match ax with
  | ⟨0, _⟩ => rfl
  | ⟨1, _⟩ => rfl

/-- The column's total is the tile's contribution. -/
theorem colSum_eq (v3 : Vec Ideal S1024x1 .i32) (v11 : Vec Ideal S1000x1000 .bf16) (v14 : Vec Ideal S1024x1000 .f32)
    (xr : Fin 1024 → Fin 1000 → ℝ) (tr : Fin 1000 → Fin 1000 → ℝ) (tt : Fin 1024 → Fin 1000)
    (h3 : ∀ r : Fin 1024, v3 (ix2 r (0 : Fin 1)) = BitVec.ofNat 32 (tt r).val)
    (h11 : ∀ k c : Fin 1000, v11 (ix2 k c) = ((tr k c : ℝ) : EReal))
    (h14 : ∀ (r : Fin 1024) (c : Fin 1000), v14 (ix2 r c) = ((xr r c : ℝ) : EReal)) (p : Fin 1) :
    (multiReduction (F := Ideal) .add [0] S1 (perCol v3 v11 v14) 0x00000000#32 reduces_S1024x1_S1 (.inl rfl) rfl : FVec Ideal S1 .f32)
        (ix1 p) = ((tileSum xr tr tt : ℝ) : EReal) := by
  refine (Ideal.multiReduction_add_single (φ := .f32) (perCol v3 v11 v14) 0x00000000#32 reduces_S1024x1_S1 (.inl rfl) rfl (ix1 p)).trans ?_
  unfold tileSum
  rw [← Cert.Spec.coe_sum]
  refine Finset.sum_congr rfl fun r _ => ?_
  exact (congrArg (perCol v3 v11 v14) (lift_col p r)).trans (perCol_apply v3 v11 v14 xr tr tt h3 h11 h14 r p)

/-- The accumulating store's value: the scalar read from the scratch plus the tile's contribution. -/
theorem pay3_eq (v3 : Vec Ideal S1024x1 .i32) (v11 : Vec Ideal S1000x1000 .bf16) (v14 : Vec Ideal S1024x1000 .f32)
    (v30 : Vec Ideal S1x1 .f32)
    (xr : Fin 1024 → Fin 1000 → ℝ) (tr : Fin 1000 → Fin 1000 → ℝ) (tt : Fin 1024 → Fin 1000)
    (h3 : ∀ r : Fin 1024, v3 (ix2 r (0 : Fin 1)) = BitVec.ofNat 32 (tt r).val)
    (h11 : ∀ k c : Fin 1000, v11 (ix2 k c) = ((tr k c : ℝ) : EReal))
    (h14 : ∀ (r : Fin 1024) (c : Fin 1000), v14 (ix2 r c) = ((xr r c : ℝ) : EReal)) :
    (k0_pay3 (F := Ideal) v3 v11 v14 v30 : FVec Ideal S1x1 .f32)
      = fun _ => v30 (ix2 (0 : Fin 1) (0 : Fin 1)) + ((tileSum xr tr tt : ℝ) : EReal) := by
  rw [pay3_unfold, shapeCast_self]
  funext j
  obtain ⟨p, q, rfl⟩ : ∃ (p : Fin 1) (q : Fin 1), j = ix2 p q := ⟨j 0, j 1, eq_ix2 j⟩
  have hp : p = 0 := Subsingleton.elim _ _
  have hq : q = 0 := Subsingleton.elim _ _
  subst hp; subst hq
  rw [addf_apply, Cert.Columns.shapeCast_a_a1_apply, colSum_eq v3 v11 v14 xr tr tt h3 h11 h14]

/-- The reset store's value: zero. The all-zero word denotes the real number 0, spread over the block's one entry;
    a cast of a shape onto itself moves nothing. -/
theorem pay2_eq : (k0_pay2 (F := Ideal) : FVec Ideal S1x1 .f32) = fun _ => (0 : EReal) := by
  show shapeCast S1x1 (broadcast S1x1 (Scalar.ofBits (F := Ideal) .f32 0x00000000#32)) shapeCasts_S1x1_S1x1 = _
  rw [shapeCast_self]
  funext i
  exact Ideal.ofBits_zero_f32

/-- The output store's value: the scratch's one entry, recast as a [1,1,1] block. Both shapes have exactly one
    entry, so the cast, which keeps row-major position, can only send the one to the other. -/
theorem pay1_eq (v38 : Vec Ideal S1x1 .f32) :
    (k0_pay1 (F := Ideal) v38 : FVec Ideal S1x1x1 .f32) = fun _ => v38 (ix2 (0 : Fin 1) (0 : Fin 1)) := by
  unfold k0_pay1
  funext j
  refine shapeCast_apply v38 _ j (ix2 (0 : Fin 1) (0 : Fin 1)) ?_
  have h1 := (S1x1x1.rowMajor j).isLt
  have h2 := (S1x1.rowMajor (ix2 (0 : Fin 1) (0 : Fin 1))).isLt
  have e1 : S1x1x1.numel = 1 := by decide
  have e2 : S1x1.numel = 1 := by decide
  omega

end Cert.KernelIdeal.Pay

end
-- ==== Proof.KernelHost.lean ====
/-
  What the kernel's region finds in its arrays: the softmax table the host operations before the region compute from the
  similarities, the labels as a column, and each window's block as rows of those arrays.

  The table.  Before the region the host forms, from the similarities S, the array −S / 0.3, takes each row's maximum
  (a fold of max from −∞, which for a row of reals is a real M_k), subtracts it, exponentiates, sums each row from 0
  (for reals, the real sum Z_k > 0), divides, and narrows the float type, which at exact values is the identity.  Read at
  an entry (k, c) with S real-valued that is  exp (a_k c − M_k) / Z_k  with a_k = −S k · / d, the softmax weight of
  class c in row k: `table_apply`.  Division by the real d ≠ 0, and by Z_k ≠ 0, is multiplication by the reciprocal
  also over the extended reals, so every intermediate entry is the real the formula names.

  The labels.  A vector recast to a one-column matrix keeps row-major order: entry b of the vector is entry (b, 0) of
  the column: `labels_apply`.

  The blocks.  The 64 grid points are 2 cores × 32 steps, and the index maps of the logits and of the labels send point
  (q, j) to block row 32 q + j, which is the point's own number t; so row r of the block at point t is row
  1024 t + r of the array (`rowOf`).  The table's index map is constantly (0, 0) and its block is the whole array.
-/
import proofs.«402906_j20048907337768_2_alg».proof.Proof.Gen.KernelIdeal.Frame
import proofs.«402906_j20048907337768_2_alg».proof.Proof.Spec
import proofs.«402906_j20048907337768_2_alg».proof.Proof.LibColumns
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

open Cert.Spec

/-! ## The table as a term of the similarities

The host operations before the region, composed: S ↦ −S / 0.3 ↦ exp (· − row maximum) ↦ that over its row sum. Each
stage is named, so that each can be read at an entry with its operand a variable. -/

/-- −x / 0.3, entry by entry (the divisor a broadcast literal). -/
def scaled (x : FVec Ideal S1000x1000 .f32) : FVec Ideal S1000x1000 .f32 :=
  Host.divf (Host.negf x) (broadcastInDim S1000x1000 ![] bcast_S_S1000x1000 (constant (F := Ideal) S_ .f32 0x3E99999A#32))

/-- The row maxima: folded from −∞, then compared with −∞ once more. -/
def rowMax (y : FVec Ideal S1000x1000 .f32) : FVec Ideal S1000 .f32 :=
  maximumf (broadcastInDim S1000 ![] bcast_S_S1000 (constant (F := Ideal) S_ .f32 0xFF800000#32))
    (Host.reduce FloatOps.maximumf y (constant (F := Ideal) S_ .f32 0xFF800000#32) reducesTo_S1000x1000_S1000_d1 h_S_)

/-- A row statistic spread back over its row: first a column, then every entry of the row. -/
def spread (v : FVec Ideal S1000 .f32) : FVec Ideal S1000x1000 .f32 :=
  broadcastInDim S1000x1000 ![0, 1] bcast_S1000x1_S1000x1000_0_1 (broadcastInDim S1000x1 ![0] bcast_S1000_S1000x1_0 v)

/-- exp (y − its row maximum). -/
def expd (y : FVec Ideal S1000x1000 .f32) : FVec Ideal S1000x1000 .f32 :=
  Host.exp (subf y (spread (rowMax y)))

/-- The row sums, from 0. -/
def rowSum (e : FVec Ideal S1000x1000 .f32) : FVec Ideal S1000 .f32 :=
  Host.reduceAdd e (constant (F := Ideal) S_ .f32 0x00000000#32) reducesTo_S1000x1000_S1000_d1 h_S_

/-- The table: the exponentials over their row sums, kept at the narrower float type (at exact values that changes nothing). -/
def tableOf (x : FVec Ideal S1000x1000 .f32) : FVec Ideal S1000x1000 .bf16 :=
  truncf .bf16 (Host.divf (expd (scaled x)) (spread (rowSum (expd (scaled x))))) bitsLt_bf16_f32

/-- What the region finds in the table's array is that term of the similarities as launched. -/
theorem V_table (c : Dev nD) :
    V m c main_v15 = tableOf (m ((c.tc : Thread nD τ).loc main_arg2)) := by
  show StableHlo.after hostOps0 (fun b => m (c, b)) (Proc.devRef .tc main_v15) = _
  after_results
  rfl

/-- And in the labels' column: the labels, recast from a vector to a one-column matrix. -/
theorem V_labels (c : Dev nD) :
    V m c main_v0 = shapeCast S65536x1 (m ((c.tc : Thread nD τ).loc main_arg1)) shapeCasts_S65536_S65536x1 := by
  show StableHlo.after hostOps0 (fun b => m (c, b)) (Proc.devRef .tc main_v0) = _
  after_results
  rfl

/-! ## Reading the table at an entry -/

/-- An entry of −x / 0.3, the literal being the real d. -/
theorem scaled_apply (x : FVec Ideal S1000x1000 .f32) (d : ℝ) (hlit : Ideal.ofBits .f32 0x3E99999A#32 = ((d : ℝ) : EReal))
    (i : S1000x1000.Idx) : scaled x i = Ideal.div (-(x i)) ((d : ℝ) : EReal) := by
  show Ideal.div (-(x i)) (broadcastInDim S1000x1000 ![] bcast_S_S1000x1000 (constant (F := Ideal) S_ .f32 0x3E99999A#32) i) = _
  rw [broadcastInDim_apply _ bcast_S_S1000x1000 _ i ix0 (fun a => a.elim0)]
  show Ideal.div (-(x i)) (Ideal.ofBits .f32 0x3E99999A#32) = _
  rw [hlit]

/-- Every entry of row k of the spread statistic is the statistic at k. -/
theorem spread_apply (v : FVec Ideal S1000 .f32) (k c' : Fin 1000) : spread v (ix2 k c') = v (ix1 k) := by
  unfold spread
  rw [broadcastInDim_apply _ bcast_S1000x1_S1000x1000_0_1 _ (ix2 k c') (ix2 k (0 : Fin 1)) (fun a => match a with
    | ⟨0, _⟩ => by show k.val = if (1000 : Nat) = 1 then 0 else k.val; rw [if_neg (by decide)]
    | ⟨1, _⟩ => by show (0 : Nat) = if (1 : Nat) = 1 then 0 else c'.val; rw [if_pos rfl])]
  exact broadcastInDim_apply _ bcast_S1000_S1000x1_0 v (ix2 k (0 : Fin 1)) (ix1 k) (fun a => match a with
    | ⟨0, _⟩ => by show k.val = if (1000 : Nat) = 1 then 0 else k.val; rw [if_neg (by decide)])

/-- The pattern of −∞. -/
theorem ofBits_neg_inf : Ideal.ofBits .f32 0xFF800000#32 = (⊥ : EReal) := by simp [Ideal.ofBits, Ideal.ieee]

/-- The source index over row k whose column is c'. -/
theorem lift_row (h : S1000x1000.Reduces [1] S1000) (k : Fin 1000) (c' : Fin (S1000x1000.size 1)) :
    h.lift (ix1 k) c' = ix2 k c' := by
  refine funext fun ax => Fin.ext ?_
  match ax with
  | ⟨0, _⟩ => rfl
  | ⟨1, _⟩ => rfl

/-- The fold of the maximum from −∞ over a nonempty row of reals is the real maximum. -/
theorem fold_max_row {n : ℕ} (hn : 0 < n) (g : Fin n → EReal) (a : Fin n → ℝ) (hg : ∀ c, g c = ((a c : ℝ) : EReal)) :
    (Finset.univ : Finset (Fin n)).fold (FloatOps.maximumf (F := Ideal) (φ := .f32)) (⊥ : EReal) g = ((rmax a : ℝ) : EReal) := by
  have e : g = fun c => ((a c : ℝ) : EReal) := funext hg
  subst e
  exact emax_eq hn a

/-- A sum of reals, read in the extended reals term by term. -/
theorem sum_row {n : ℕ} (g : Fin n → EReal) (f : Fin n → ℝ) (hg : ∀ c, g c = ((f c : ℝ) : EReal)) :
    ∑ c, g c = ((∑ c, f c : ℝ) : EReal) := by
  rw [← coe_sum]
  exact Finset.sum_congr rfl fun c _ => hg c

/-- The maximum of a row of reals: the fold from −∞ over the row's columns is the real maximum, and −∞ against it
    changes nothing. -/
theorem rowMax_apply (y : FVec Ideal S1000x1000 .f32) (a : Fin 1000 → ℝ) (k : Fin 1000)
    (hy : ∀ c', y (ix2 k c') = ((a c' : ℝ) : EReal)) : rowMax y (ix1 k) = ((rmax a : ℝ) : EReal) := by
  have hred : S1000x1000.Reduces [1] S1000 := by decide
  unfold rowMax
  rw [maximumf_apply, broadcastInDim_apply _ bcast_S_S1000 _ (ix1 k) ix0 (fun a => a.elim0), constant_apply, ofBits_neg_inf,
    max_bot_left, Host.reduce_eq_fold_single FloatOps.maximumf y _ reducesTo_S1000x1000_S1000_d1 hred h_S_ (ix1 k),
    constant_apply, ofBits_neg_inf]
  exact fold_max_row (n := 1000) (by decide) _ a (fun c' => (congrArg y (lift_row hred k c')).trans (hy c'))

/-- The sum of a row of reals, from 0. -/
theorem rowSum_apply (e : FVec Ideal S1000x1000 .f32) (f : Fin 1000 → ℝ) (k : Fin 1000)
    (he : ∀ c', e (ix2 k c') = ((f c' : ℝ) : EReal)) : rowSum e (ix1 k) = ((∑ c', f c' : ℝ) : EReal) := by
  have hred : S1000x1000.Reduces [1] S1000 := by decide
  unfold rowSum Host.reduceAdd
  rw [Ideal.hostReduceAdd_def, Ideal.hostReduceAdd_single reducesTo_S1000x1000_S1000_d1 hred, constant_apply,
    Ideal.ofBits_zero_f32, zero_add]
  exact sum_row (n := 1000) _ f (fun c' => (congrArg e (lift_row hred k c')).trans (he c'))

/-- The host's quotient, exponential and negation at an entry, at exact values. -/
theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- Row k of the table is the softmax of row k of −s / d, the shift taken out being that row's maximum. -/
theorem tableOf_apply (x : FVec Ideal S1000x1000 .f32) (s : Fin 1000 → Fin 1000 → ℝ) (d : ℝ) (hd : d ≠ 0)
    (hlit : Ideal.ofBits .f32 0x3E99999A#32 = ((d : ℝ) : EReal))
    (hs : ∀ k c' : Fin 1000, x (ix2 k c') = ((s k c' : ℝ) : EReal)) (k c' : Fin 1000) :
    tableOf x (ix2 k c') = ((sm (arow s d k) (rmax (arow s d k)) c' : ℝ) : EReal) := by
  have hy : ∀ j, scaled x (ix2 k j) = ((arow s d k j : ℝ) : EReal) := fun j => by
    rw [scaled_apply x d hlit, hs, Ideal.div_coe hd, ← EReal.coe_neg, ← EReal.coe_mul]
    rfl
  unfold tableOf
  rw [truncf_apply, hostDivf_apply]
  generalize scaled x = y at hy
  have he : ∀ j, expd y (ix2 k j) = ((Real.exp (arow s d k j - rmax (arow s d k)) : ℝ) : EReal) := fun j => by
    unfold expd
    rw [hostExp_apply, subf_apply, spread_apply, rowMax_apply y _ k hy, hy, ← EReal.coe_sub, Ideal.exp_coe]
  generalize expd y = e at he
  rw [spread_apply, rowSum_apply e _ k he, he]
  have hZ : (∑ j, Real.exp (arow s d k j - rmax (arow s d k))) = Z (arow s d k) (rmax (arow s d k)) := rfl
  rw [hZ, Ideal.div_coe (Z_pos (by decide) _ _).ne', ← EReal.coe_mul]
  unfold sm
  rw [mul_one_div]

/-! ## The table, the labels and the three blocks, entry by entry -/

/-- Sample number of row r of the tile at grid point t (the 64 points in order are the 64 consecutive tiles). -/
def rowOf (t : Fin cfg0.N) (r : Fin 1024) : Fin 65536 :=
  ⟨t.val * 1024 + r.val, by have h : t.val < 64 := lt_of_lt_of_eq t.isLt N_0; have := r.isLt; omega⟩

/-- The table the region stages: row k is the softmax of row k of −S / 0.3. -/
theorem table_apply (c : Dev nD) (s : Fin 1000 → Fin 1000 → ℝ) (d : ℝ) (hd : d ≠ 0)
    (hlit : Ideal.ofBits .f32 0x3E99999A#32 = ((d : ℝ) : EReal))
    (hs : ∀ k c' : Fin 1000, m ((c.tc : Thread nD τ).loc main_arg2) (ix2 k c') = ((s k c' : ℝ) : EReal)) (k c' : Fin 1000) :
    V m c main_v15 (ix2 k c')
      = ((Cert.Spec.sm (Cert.Spec.arow s d k) (Cert.Spec.rmax (Cert.Spec.arow s d k)) c' : ℝ) : EReal) :=
  (congrFun (V_table m c) (ix2 k c')).trans (tableOf_apply _ s d hd hlit hs k c')

/-- The labels reshaped to a column. -/
theorem labels_apply (c : Dev nD) (b : Fin 65536) :
    V m c main_v0 (ix2 b (0 : Fin 1)) = m ((c.tc : Thread nD τ).loc main_arg1) (ix1 b) :=
  (congrFun (V_labels m c) (ix2 b (0 : Fin 1))).trans
    (Cert.Columns.shapeCast_a_a1_apply _ shapeCasts_S65536_S65536x1 b 0)

/-- Where the index maps send a grid point: the logits' and the labels' to the point's own number (block row
    32 q + j at point (q, j)), the table's to block (0, 0). Decided over the 64 points. -/
theorem index_logits : ∀ t : Fin grid0.N, win0_0.index t (0 : Fin 2) = t.val ∧ win0_0.index t (1 : Fin 2) = 0 := by
  decide +kernel
theorem index_labels : ∀ t : Fin grid0.N, win0_1.index t (0 : Fin 2) = t.val ∧ win0_1.index t (1 : Fin 2) = 0 := by
  decide +kernel
theorem index_table : ∀ t : Fin grid0.N, win0_2.index t (0 : Fin 2) = 0 ∧ win0_2.index t (1 : Fin 2) = 0 := by
  decide +kernel

/-- The logits block at point t: rows t·1024 … of the logits. A block's coordinate on an axis is the block index
    times the block's extent plus the coordinate inside the block. -/
theorem iblk0_apply (c : Dev nD) (t : Fin cfg0.N) (r : Fin 1024) (c' : Fin 1000) :
    iblk m c 0 t (ix2 r c') = m ((c.tc : Thread nD τ).loc main_arg0) (ix2 (rowOf t r) c') := by
  unfold iblk
  rw [View.read_apply]
  show V m c main_arg0 _ = _
  rw [V_main_arg0]
  refine congrArg (m ((c.tc : Thread nD τ).loc main_arg0)) (funext fun a => Fin.ext ?_)
  match a with
  | ⟨0, _⟩ =>
    show win0_0.index t 0 * 1024 + 1 * r.val = t.val * 1024 + r.val
    rw [(index_logits t).1]; omega
  | ⟨1, _⟩ =>
    show win0_0.index t 1 * 1000 + 1 * c'.val = c'.val
    rw [(index_logits t).2]; omega

/-- The labels block at point t: the same rows of the labels. -/
theorem iblk1_apply (c : Dev nD) (t : Fin cfg0.N) (r : Fin 1024) :
    iblk m c 1 t (ix2 r (0 : Fin 1)) = m ((c.tc : Thread nD τ).loc main_arg1) (ix1 (rowOf t r)) := by
  refine Eq.trans ?_ (labels_apply m c (rowOf t r))
  unfold iblk
  rw [View.read_apply]
  show V m c main_v0 _ = V m c main_v0 _
  generalize V m c main_v0 = col
  refine congrArg col (funext fun a => Fin.ext ?_)
  match a with
  | ⟨0, _⟩ =>
    show win0_1.index t 0 * 1024 + 1 * r.val = t.val * 1024 + r.val
    rw [(index_labels t).1]; omega
  | ⟨1, _⟩ =>
    show win0_1.index t 1 * 1 + 1 * 0 = 0
    rw [(index_labels t).2]

/-- The table block at every point: the whole table. -/
theorem iblk2_apply (c : Dev nD) (t : Fin cfg0.N) (k c' : Fin 1000) :
    iblk m c 2 t (ix2 k c') = V m c main_v15 (ix2 k c') := by
  unfold iblk
  rw [View.read_apply]
  show V m c main_v15 _ = V m c main_v15 _
  generalize V m c main_v15 = tab
  refine congrArg tab (funext fun a => Fin.ext ?_)
  match a with
  | ⟨0, _⟩ =>
    show win0_2.index t 0 * 1000 + 1 * k.val = k.val
    rw [(index_table t).1]; omega
  | ⟨1, _⟩ =>
    show win0_2.index t 1 * 1000 + 1 * c'.val = c'.val
    rw [(index_table t).2]; omega

end Cert.KernelIdeal.HostV

end
-- ==== Proof.KernelAcc.lean ====
/-
  The kernel's value: what its result buffer holds after the run.

  The grid is 2 cores × 32 tiles; grid point n = 32·q + j handles tile n (1024 consecutive samples).  The body keeps a
  running scalar in a scratch cell: at the first tile of a core (j = 0) it is reset to zero and the tile's contribution
  added; at every later tile the contribution is added to what the tile before left; at the last tile of a core (j = 31)
  the scalar is also copied into the core's entry of the [2,1,1] output.  So after point n the scratch holds the sum of
  the contributions of tiles 32·q … n, the output array ends holding the two cores' sums, and the host operations after
  the region add the two and divide by 65536.
-/
import proofs.«402906_j20048907337768_2_alg».proof.Proof.Gen.KernelIdeal.Frame
import proofs.«402906_j20048907337768_2_alg».proof.Proof.KernelPay
import proofs.«402906_j20048907337768_2_alg».proof.Proof.KernelHost
import proofs.«402906_j20048907337768_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Acc

open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat)

/-! ## What each case of the body leaves, as the stored values -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the scratch ends at the accumulating store's value over what it held. -/
theorem sout_B (c : Dev nD) (i : grid0.Coords) (a2 : Memref sig .tc .vmem S1024x1000 .f32) (h2 : a2.IsWhole) (a3 : Memref sig .tc .vmem S1024x1 .i32) (h3 : a3.IsWhole) (a4 : Memref sig .tc .vmem S1000x1000 .bf16) (h4 : a4.IsWhole) (a5 : Memref sig .tc .vmem S1x1x1 .f32) (h5 : a5.IsWhole) (a6 : Memref sig .tc .vmem S1x1 .f32) (h6 : a6.IsWhole) (hc0 : ¬cond0_0 i) (hc1 : ¬cond0_1 i)
    (x0 : Vec F S1024x1000 .f32) (x1 : Vec F S1024x1 .i32) (x2 : Vec F S1000x1000 .bf16) (xs0 : Vec F S1x1 .f32) :
    sout0_B_0 c i a2 h2 a3 h3 a4 h4 a5 h5 a6 h6 hc0 hc1 x0 x1 x2 xs0 = k0_pay3 x1 x2 x0 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h2.read_unread, h3.read_unread, h4.read_unread, h6.read_unread, View.ld_unit_zero (S := S1024x1000) hz2, View.ld_unit_zero (S := S1024x1) hz2, View.ld_unit_zero (S := S1000x1000) hz2, View.ld_unit_zero (S := S1x1) hz2]

/-- A core's first tile: the scratch is reset to the zero store's value and the accumulating store reads that back. -/
theorem sout_A (c : Dev nD) (i : grid0.Coords) (a2 : Memref sig .tc .vmem S1024x1000 .f32) (h2 : a2.IsWhole) (a3 : Memref sig .tc .vmem S1024x1 .i32) (h3 : a3.IsWhole) (a4 : Memref sig .tc .vmem S1000x1000 .bf16) (h4 : a4.IsWhole) (a5 : Memref sig .tc .vmem S1x1x1 .f32) (h5 : a5.IsWhole) (a6 : Memref sig .tc .vmem S1x1 .f32) (h6 : a6.IsWhole) (hc0 : cond0_0 i) (hc1 : ¬cond0_1 i)
    (x0 : Vec F S1024x1000 .f32) (x1 : Vec F S1024x1 .i32) (x2 : Vec F S1000x1000 .bf16) :
    sout0_A_0 c i a2 h2 a3 h3 a4 h4 a5 h5 a6 h6 hc0 hc1 x0 x1 x2 = k0_pay3 x1 x2 x0 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h6.read_unread, View.ld_unit_zero (S := S1024x1000) hz2, View.ld_unit_zero (S := S1024x1) hz2, View.ld_unit_zero (S := S1000x1000) hz2, View.ld_unit_zero (S := S1x1) hz2]

/-- A core's last tile: the scratch as at a middle tile, -/
theorem sout_C (c : Dev nD) (i : grid0.Coords) (a2 : Memref sig .tc .vmem S1024x1000 .f32) (h2 : a2.IsWhole) (a3 : Memref sig .tc .vmem S1024x1 .i32) (h3 : a3.IsWhole) (a4 : Memref sig .tc .vmem S1000x1000 .bf16) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1024x1000 .f32) (x1 : Vec F S1024x1 .i32) (x2 : Vec F S1000x1000 .bf16) (xs0 : Vec F S1x1 .f32) :
    sout0_C_0 c i a2 h2 a3 h3 a4 h4 a5 h5 a6 h6 hc0 hc1 x0 x1 x2 xs0 = k0_pay3 x1 x2 x0 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread, View.ld_unit_zero (S := S1024x1000) hz2, View.ld_unit_zero (S := S1024x1) hz2, View.ld_unit_zero (S := S1000x1000) hz2, View.ld_unit_zero (S := S1x1) hz2]

/-- and the output block is the output store's value of the scratch just written. -/
theorem out_C (c : Dev nD) (i : grid0.Coords) (a2 : Memref sig .tc .vmem S1024x1000 .f32) (h2 : a2.IsWhole) (a3 : Memref sig .tc .vmem S1024x1 .i32) (h3 : a3.IsWhole) (a4 : Memref sig .tc .vmem S1000x1000 .bf16) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1024x1000 .f32) (x1 : Vec F S1024x1 .i32) (x2 : Vec F S1000x1000 .bf16) (xs0 : Vec F S1x1 .f32) :
    out0_C_3 c i a2 h2 a3 h3 a4 h4 a5 h5 a6 h6 hc0 hc1 x0 x1 x2 xs0 = k0_pay1 (k0_pay3 x1 x2 x0 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readCov_unit_zero (S := S1x1) _ hz2, View.readAt_eq_ld, h2.read_unread, h3.read_unread, h4.read_unread, h6.read_unread, View.ld_unit_zero (S := S1024x1000) hz2, View.ld_unit_zero (S := S1024x1) hz2, View.ld_unit_zero (S := S1000x1000) hz2, View.ld_unit_zero (S := S1x1) hz2]

end Pieces

/-! ## The running scalar, point by point -/

section Accumulate

/-- What is assumed of the launch memory on a core: the temperature literal is the nonzero real d, the logits and the
    similarities hold the reals x and s, and the labels are the class numbers t. -/
structure Hyp (m : (ℓ : Loc nD τ sig) → Buf (Elt Ideal) ℓ) (c : Dev nD)
    (x : Fin 65536 → Fin 1000 → ℝ) (s : Fin 1000 → Fin 1000 → ℝ) (t : Fin 65536 → Fin 1000) (d : ℝ) : Prop where
  hd : d ≠ 0
  hlit : Ideal.ofBits .f32 0x3E99999A#32 = ((d : ℝ) : EReal)
  hx : ∀ (b : Fin 65536) (c' : Fin 1000), m ((c.tc : Thread nD τ).loc main_arg0) (ix2 b c') = ((x b c' : ℝ) : EReal)
  hs : ∀ k c' : Fin 1000, m ((c.tc : Thread nD τ).loc main_arg2) (ix2 k c') = ((s k c' : ℝ) : EReal)
  ht : ∀ b : Fin 65536, m ((c.tc : Thread nD τ).loc main_arg1) (ix1 b) = BitVec.ofNat 32 (t b).val

variable (m : (ℓ : Loc nD τ sig) → Buf (Elt Ideal) ℓ) (c : Dev nD)
variable (x : Fin 65536 → Fin 1000 → ℝ) (s : Fin 1000 → Fin 1000 → ℝ) (t : Fin 65536 → Fin 1000) (d : ℝ)

/-- The softmax table as reals: row k is the softmax of row k of −S / d. -/
def tbl (k c' : Fin 1000) : ℝ := Cert.Spec.sm (Cert.Spec.arow s d k) (Cert.Spec.rmax (Cert.Spec.arow s d k)) c'

/-- The contribution of the tile at grid point n. -/
def tileR (n : Fin cfg0.N) : ℝ :=
  Pay.tileSum (fun r c' => x (HostV.rowOf n r) c') (tbl s d) (fun r => t (HostV.rowOf n r))

/-- The same by the point's number (zero past the grid). -/
def tileN (n : ℕ) : ℝ := if h : n < cfg0.N then tileR x s t d ⟨n, h⟩ else 0

theorem tileN_of_lt (n : ℕ) (h : n < cfg0.N) : tileN x s t d n = tileR x s t d ⟨n, h⟩ := dif_pos h

/-- The running sum after point n: the contributions of the core's tiles up to n. -/
def accR (n : ℕ) : ℝ := ∑ j ∈ Finset.range (n % 32 + 1), tileN x s t d (n - n % 32 + j)

/-- At a core's first tile the running sum is that tile's contribution. -/
theorem accR_first (n : ℕ) (h0 : n % 32 = 0) : accR x s t d n = tileN x s t d n := by
  unfold accR
  rw [h0, Finset.sum_range_one]
  simp

/-- At a later tile it is the sum after the tile before plus this tile's contribution. -/
theorem accR_next (n : ℕ) (h0 : ¬n % 32 = 0) : accR x s t d n = accR x s t d (n - 1) + tileN x s t d n := by
  unfold accR
  have e1 : n % 32 + 1 = ((n - 1) % 32 + 1) + 1 := by omega
  have e2 : n - n % 32 = (n - 1) - (n - 1) % 32 := by omega
  rw [e1, Finset.sum_range_succ, e2]
  congr 2
  omega

variable {m c x s t d}

/-- The accumulating store at point n over a scratch holding prev: prev's entry plus the tile's contribution. -/
theorem step (H : Hyp m c x s t d) (n : Fin cfg0.N) (prev : Vec Ideal S1x1 .f32) :
    (k0_pay3 (F := Ideal) (iblk m c 1 n) (iblk m c 2 n) (iblk m c 0 n) prev : FVec Ideal S1x1 .f32)
      = fun _ => prev (ix2 (0 : Fin 1) (0 : Fin 1)) + ((tileR x s t d n : ℝ) : EReal) :=
  Pay.pay3_eq (iblk m c 1 n) (iblk m c 2 n) (iblk m c 0 n) prev
    (fun r c' => x (HostV.rowOf n r) c') (tbl s d) (fun r => t (HostV.rowOf n r))
    (fun r => (HostV.iblk1_apply m c n r).trans (H.ht _))
    (fun k c' => (HostV.iblk2_apply m c n k c').trans (HostV.table_apply m c s d H.hd H.hlit H.hs k c'))
    (fun r c' => (HostV.iblk0_apply m c n r c').trans (H.hx _ _))

/-- THE INVARIANT: after point n the scratch holds the running sum — by induction on the point. -/
theorem scratch_eq (H : Hyp m c x s t d) :
    ∀ (n : ℕ) (h : n < cfg0.N), (outsAt0 m c n h).2 = fun _ => ((accR x s t d n : ℝ) : EReal)
  | 0, h => by
    rw [outsAt0_A m c ⟨0, h⟩ rfl (by dsimp only; omega)]
    dsimp only
    rw [sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩),
      step H ⟨0, h⟩, Pay.pay2_eq, accR_first x s t d 0 rfl, tileN_of_lt x s t d 0 h]
    funext _
    exact zero_add _
  | n + 1, h => by
    have hN : cfg0.N = 64 := N_0
    by_cases h0 : (n + 1) % 32 = 0
    · have h1 : ¬(n + 1) % 32 = 31 := by omega
      rw [outsAt0_A m c ⟨n + 1, h⟩ h0 h1]
      dsimp only
      rw [sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩),
        step H ⟨n + 1, h⟩, Pay.pay2_eq, accR_first x s t d (n + 1) h0, tileN_of_lt x s t d (n + 1) h]
      funext _
      exact zero_add _
    · have ih := scratch_eq H n (Nat.lt_of_succ_lt h)
      by_cases h1 : (n + 1) % 32 = 31
      · rw [outsAt0_C m c ⟨n + 1, h⟩ h0 h1]
        dsimp only
        rw [sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩),
          step H ⟨n + 1, h⟩]
        show (fun _ => (outsAt0 m c n _).2 (ix2 (0 : Fin 1) (0 : Fin 1)) + _) = _
        rw [ih, accR_next x s t d (n + 1) h0, tileN_of_lt x s t d (n + 1) h, EReal.coe_add]
        rfl
      · rw [outsAt0_B m c ⟨n + 1, h⟩ h0 h1]
        dsimp only
        rw [sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩),
          step H ⟨n + 1, h⟩]
        show (fun _ => (outsAt0 m c n _).2 (ix2 (0 : Fin 1) (0 : Fin 1)) + _) = _
        rw [ih, accR_next x s t d (n + 1) h0, tileN_of_lt x s t d (n + 1) h, EReal.coe_add]
        rfl

end Accumulate

/-! ## The output array after the run -/

section Final

variable {m : (ℓ : Loc nD τ sig) → Buf (Elt Ideal) ℓ} {c : Dev nD}
variable {x : Fin 65536 → Fin 1000 → ℝ} {s : Fin 1000 → Fin 1000 → ℝ} {t : Fin 65536 → Fin 1000} {d : ℝ}

/-- The [2,1,1] output: core q's entry is the running sum after the core's last tile. -/
def outArr (x : Fin 65536 → Fin 1000 → ℝ) (s : Fin 1000 → Fin 1000 → ℝ) (t : Fin 65536 → Fin 1000) (d : ℝ) :
    (⟨3, ![2, 1, 1]⟩ : Shape).Idx → EReal :=
  fun i => ((accR x s t d ((i 0).val * 32 + 31) : ℝ) : EReal)

/-- At a core's last tile the output block holds the running sum. -/
theorem out_eq (H : Hyp m c x s t d) (n : Fin cfg0.N) (h0 : ¬n.val % 32 = 0) (h31 : n.val % 32 = 31) :
    (outsAt0 m c n.val n.isLt).1 = fun _ => ((accR x s t d n.val : ℝ) : EReal) := by
  rw [outsAt0_C m c n h0 h31]
  dsimp only
  rw [out_C (F := Ideal) c (grid0.coords n) (ms0_0 n) (hs0_0 n) (ms0_1 n) (hs0_1 n) (ms0_2 n) (hs0_2 n) (ms0_3 n) (hs0_3 n) scM0_0 (Memref.isWhole_whole _) _ _ (iblk m c 0 n) (iblk m c 1 n) (iblk m c 2 n), Pay.pay1_eq, step H n]
  show (fun _ => (outsAt0 m c (n.val - 1) _).2 (ix2 (0 : Fin 1) (0 : Fin 1)) + _) = _
  rw [scratch_eq H (n.val - 1) _, accR_next x s t d n.val h0, tileN_of_lt x s t d n.val n.isLt, EReal.coe_add]

/-- Where output block n sits: core n / 32's entry; every block is one element. -/
theorem idx3 : ∀ n : Fin cfg0.N, win0_3.index n (0 : Fin 3) = n.val / 32 ∧ win0_3.index n (1 : Fin 3) = 0 ∧ win0_3.index n (2 : Fin 3) = 0 :=
  (by decide +kernel : ∀ n : Fin grid0.N, win0_3.index n (0 : Fin 3) = n.val / 32 ∧ win0_3.index n (1 : Fin 3) = 0 ∧ win0_3.index n (2 : Fin 3) = 0)
theorem xs3 : ∀ (n : Fin cfg0.N) (a : Fin 3), win0_3.xsize (grid0.coords n) a = 1 :=
  (by decide +kernel : ∀ (n : Fin grid0.N) (a : Fin 3), win0_3.xsize (grid0.coords n) a = 1)

/-- What a write-back writes is the output array read through the point's block. -/
theorem flushed_eq (H : Hyp m c x s t d) (n : Fin cfg0.N) (hf : (cfg0.win 3).flush n = true) :
    (dats m 0 c).flushed 3 n = ((cfg0.win 3).blk n).view.read (Elt Ideal) (outArr x s t d) := by
  have h31 : n.val % 32 = 31 := (flush0_3 n).mp hf
  have h0 : ¬n.val % 32 = 0 := by omega
  show (cfg0.win 3).cut (grid0.coords n) ((dats m 0 c).after 3 n) = _
  rw [after0_3, out_eq H n h0 h31]
  funext y
  rw [View.read_apply]
  show ((accR x s t d n.val : ℝ) : EReal) = outArr x s t d (((cfg0.win 3).blk n).view.emb y)
  unfold outArr
  have he : ((((cfg0.win 3).blk n).view.emb y) 0).val = n.val / 32 := by
    show win0_3.index n 0 * 1 + 1 * (y 0).val = _
    have hy : (y 0).val < 1 := lt_of_lt_of_eq (y 0).isLt (xs3 n 0)
    rw [(idx3 n).1]; omega
  rw [he]
  congr 2
  omega

/-- The two write-backs cover the array, so it ends holding the two cores' sums. -/
theorem final (H : Hyp m c x s t d) : (dats m 0 c).arrAt 3 cfg0.N = outArr x s t d :=
  (dats m 0 c).arrAt_eq_of_cover 3 (outArr x s t d) (flushed_eq H) fun i => by
    have hN : cfg0.N = 64 := N_0
    have h2 : (i 0 : Nat) < 2 := (i 0).isLt
    have h1 : (i 1 : Nat) < 1 := (i 1).isLt
    have h1' : (i 2 : Nat) < 1 := (i 2).isLt
    obtain ⟨n, hn⟩ : ∃ n : Fin cfg0.N, n.val = (i 0 : Nat) * 32 + 31 := ⟨⟨(i 0 : Nat) * 32 + 31, by omega⟩, rfl⟩
    refine ⟨n, (flush0_3 n).mpr (by omega), ?_⟩
    show i ∈ ((View.whole main_v16).slice (win0_3.rect n)).set
    rw [View.set_slice_whole, Rect.mem_set_unit]
    intro a
    have hq : n.val / 32 = (i 0 : Nat) := by omega
    match a with
    | ⟨0, _⟩ =>
      show win0_3.index n 0 * win0_3.size 0 ≤ (i 0 : Nat) ∧ (i 0 : Nat) < win0_3.index n 0 * win0_3.size 0 + win0_3.xsize (grid0.coords n) 0
      rw [(idx3 n).1, xs3 n 0, hq]; show (i 0 : Nat) * 1 ≤ _ ∧ _ < (i 0 : Nat) * 1 + 1; omega
    | ⟨1, _⟩ =>
      show win0_3.index n 1 * win0_3.size 1 ≤ (i 1 : Nat) ∧ (i 1 : Nat) < win0_3.index n 1 * win0_3.size 1 + win0_3.xsize (grid0.coords n) 1
      rw [(idx3 n).2.1, xs3 n 1]; omega
    | ⟨2, _⟩ =>
      show win0_3.index n 2 * win0_3.size 2 ≤ (i 2 : Nat) ∧ (i 2 : Nat) < win0_3.index n 2 * win0_3.size 2 + win0_3.xsize (grid0.coords n) 2
      rw [(idx3 n).2.2, xs3 n 2]; omega

end Final

/-! ## The lines after the region, and the kernel's run -/

section Tail

variable {m : (ℓ : Loc nD τ sig) → Buf (Elt Ideal) ℓ} {c : Dev nD}
variable {x : Fin 65536 → Fin 1000 → ℝ} {s : Fin 1000 → Fin 1000 → ℝ} {t : Fin 65536 → Fin 1000} {d : ℝ}

theorem numel_S1x1x1 : S1x1x1.numel = 1 := by decide
theorem numel_S_ : S_.numel = 1 := by decide

/-- A one-element array recast to a scalar reads its one element. -/
theorem cast_scalar (X : S1x1x1.Idx → EReal) (j : S_.Idx) :
    shapeCast S_ X shapeCasts_S1x1x1_S_ j = X (ix3 (0 : Fin 1) (0 : Fin 1) (0 : Fin 1)) :=
  shapeCast_apply X shapeCasts_S1x1x1_S_ j (ix3 (0 : Fin 1) (0 : Fin 1) (0 : Fin 1)) (by
    have h1 := Nat.lt_one_iff.mp (lt_of_lt_of_eq (Shape.rowMajor S1x1x1 (ix3 (0 : Fin 1) (0 : Fin 1) (0 : Fin 1))).isLt numel_S1x1x1)
    have h2 := Nat.lt_one_iff.mp (lt_of_lt_of_eq (Shape.rowMajor S_ j).isLt numel_S_)
    rw [h1, h2])

/-- The two one-element slices of the [2,1,1] output are its two entries. -/
theorem slice0 (X : S2x1x1.Idx → EReal) :
    extractStridedSlice S1x1x1 ![0, 0, 0] X slices_S2x1x1_S1x1x1_0_0_0 (ix3 (0 : Fin 1) (0 : Fin 1) (0 : Fin 1))
      = X (ix3 (0 : Fin 2) (0 : Fin 1) (0 : Fin 1)) :=
  extractStridedSlice_apply ![0, 0, 0] X slices_S2x1x1_S1x1x1_0_0_0 _ (ix3 (0 : Fin 2) (0 : Fin 1) (0 : Fin 1))
    (fun a => match a with | ⟨0, _⟩ => rfl | ⟨1, _⟩ => rfl | ⟨2, _⟩ => rfl)
theorem slice1 (X : S2x1x1.Idx → EReal) :
    extractStridedSlice S1x1x1 ![1, 0, 0] X slices_S2x1x1_S1x1x1_1_0_0 (ix3 (0 : Fin 1) (0 : Fin 1) (0 : Fin 1))
      = X (ix3 (1 : Fin 2) (0 : Fin 1) (0 : Fin 1)) :=
  extractStridedSlice_apply ![1, 0, 0] X slices_S2x1x1_S1x1x1_1_0_0 _ (ix3 (1 : Fin 2) (0 : Fin 1) (0 : Fin 1))
    (fun a => match a with | ⟨0, _⟩ => rfl | ⟨1, _⟩ => rfl | ⟨2, _⟩ => rfl)

/-- The result buffer after the lines that follow the region: the two cores' sums added and divided by the count. -/
theorem tail_eq (H : Hyp m c x s t d) :
    Pipeline.afterTail₀ cfgs (dats m) 0 (V0 m) [hostOps1] c main_v22
      = fun _ => Ideal.div (outArr x s t d (ix3 (0 : Fin 2) (0 : Fin 1) (0 : Fin 1)) + outArr x s t d (ix3 (1 : Fin 2) (0 : Fin 1) (0 : Fin 1)))
          (Ideal.ofBits .f32 0x47800000#32) := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v16)
      = outArr x s t d :=
    (Pipeline.withArrays_arr spec0 launch0.win.arr_inj c _ _ 3).trans (final H)
  rw [e]
  funext j
  show Ideal.div (shapeCast S_ (extractStridedSlice S1x1x1 ![0, 0, 0] (outArr x s t d) slices_S2x1x1_S1x1x1_0_0_0) shapeCasts_S1x1x1_S_ j
      + shapeCast S_ (extractStridedSlice S1x1x1 ![1, 0, 0] (outArr x s t d) slices_S2x1x1_S1x1x1_1_0_0) shapeCasts_S1x1x1_S_ j)
      (Ideal.ofBits .f32 0x47800000#32) = _
  rw [cast_scalar, cast_scalar, slice0, slice1]

/-- A core's sum is the sum of its samples' terms. -/
theorem accR_core (x : Fin 65536 → Fin 1000 → ℝ) (s : Fin 1000 → Fin 1000 → ℝ) (t : Fin 65536 → Fin 1000) (d : ℝ) (q : Fin 2) :
    accR x s t d (q.val * 32 + 31)
      = ∑ j : Fin 32, ∑ r : Fin 1024, Cert.Spec.rowLoss x s d t (Cert.Spec.sampleOf q j r) := by
  have hN : cfg0.N = 64 := N_0
  have hq := q.isLt
  unfold accR
  have e1 : (q.val * 32 + 31) % 32 + 1 = 32 := by omega
  have e2 : q.val * 32 + 31 - (q.val * 32 + 31) % 32 = q.val * 32 := by omega
  rw [e1, e2, Finset.sum_range]
  refine Finset.sum_congr rfl fun j _ => ?_
  have hj : q.val * 32 + j.val < cfg0.N := by have := j.isLt; omega
  rw [tileN_of_lt x s t d _ hj]
  unfold tileR Pay.tileSum
  refine Finset.sum_congr rfl fun r _ => ?_
  have hb : HostV.rowOf ⟨q.val * 32 + j.val, hj⟩ r = Cert.Spec.sampleOf q j r := Fin.ext rfl
  dsimp only
  rw [hb]
  rfl

/-- The result buffer holds the mean of the samples' terms. -/
theorem value (H : Hyp m c x s t d) (hcount : Ideal.ofBits .f32 0x47800000#32 = (((65536 : ℝ)) : EReal)) :
    Pipeline.afterTail₀ cfgs (dats m) 0 (V0 m) [hostOps1] c main_v22
      = fun _ => ((Cert.Spec.total x s d t * (1 / 65536) : ℝ) : EReal) := by
  rw [tail_eq H]
  funext _
  show Ideal.div (((accR x s t d ((0 : Fin 2).val * 32 + 31) : ℝ) : EReal) + ((accR x s t d ((1 : Fin 2).val * 32 + 31) : ℝ) : EReal)) _ = _
  rw [hcount, Ideal.div_coe (by norm_num : (65536 : ℝ) ≠ 0), ← EReal.coe_add, ← EReal.coe_mul, accR_core, accR_core]
  unfold Cert.Spec.total
  rw [Cert.Spec.sum_samples, Fin.sum_univ_two]

/-- THE KERNEL'S RUN, READ: under the assumptions on the launch memory of every core, every weakly fair execution
    terminates with the result buffer at the mean of the samples' terms and the three arguments unchanged. -/
theorem run (m : (ℓ : Loc nD τ sig) → Buf (Elt Ideal) ℓ) (ρ : Dev nD → PrngReg)
    (x : Dev nD → Fin 65536 → Fin 1000 → ℝ) (s : Dev nD → Fin 1000 → Fin 1000 → ℝ) (t : Dev nD → Fin 65536 → Fin 1000) (d : ℝ)
    (H : ∀ c, Hyp m c (x c) (s c) (t c) d) (hcount : Ideal.ofBits .f32 0x47800000#32 = (((65536 : ℝ)) : EReal)) :
    θ_run defs (onTc (τ := τ) (main (F := Ideal))) ⟨m, fun _ => 0, ρ⟩ (fun r => ∀ c : Dev nD,
      r.2.mem ((c.tc : Thread nD τ).loc main_v22) = (fun _ => ((Cert.Spec.total (x c) (s c) d (t c) * (1 / 65536) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (value (H c) hcount),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Tail

end Cert.KernelIdeal.Acc

end
-- ==== Proof.lean ====
/-
  Soft-label cross entropy: the kernel against its reference, over the extended reals.

  Both programs take logits X (65536 × 1000), labels t (65536 class numbers) and a similarity matrix S (1000 × 1000)
  and return one number, the mean over the samples b of
        lse(X_b) − ∑_c T(t_b, c) · X(b, c),        T(k, ·) = softmax(−S(k, ·) / 0.3),   lse = log ∑ exp.
  The kernel builds the whole table T once on the host, picks row t_b of it inside the kernel by multiplying with the
  one-hot row of the label, forms the term above per sample, sums the samples of each tile, the tiles of each of two
  cores, and finally the two cores, and divides by 65536.  The reference gathers row t_b of S first, takes the softmax
  of −(that row)/0.3 per sample, multiplies it with the log-softmax of the logits, sums, takes the mean and negates.
  Row by row the two agree because the softmax weights sum to one (Proof/Spec.lean, refRow_eq); the sums agree because
  65536 samples are 2 × 32 × 1024 of them (sum_samples).

  The precondition says the logits and similarities are finite and every label is a class number in [0, 1000): for a
  label outside that range the one-hot row is empty while the reference's indexing clamps or wraps, and the two differ.
  Under it every intermediate is a real number, which is what the row law needs.

  The kernel's value is read off its frame run point by point (Proof/KernelAcc.lean over Proof/KernelPay.lean and
  Proof/KernelHost.lean), the reference's off its run operation by operation (Proof/RefRun.lean, Proof/RefValue.lean);
  both are stated at the same real number, the total of Proof/Spec.lean over 65536.
-/
import proofs.«402906_j20048907337768_2_alg».proof.Defs
import proofs.«402906_j20048907337768_2_alg».proof.Proof.Gen.Kernel
import proofs.«402906_j20048907337768_2_alg».proof.Proof.Gen.Kernel.Frame
import proofs.«402906_j20048907337768_2_alg».proof.Proof.Gen.KernelIdeal
import proofs.«402906_j20048907337768_2_alg».proof.Proof.Gen.KernelIdeal.Frame
import proofs.«402906_j20048907337768_2_alg».proof.Proof.Gen.ReferenceIdeal
import proofs.«402906_j20048907337768_2_alg».proof.Proof.Gen.Pre_finite_inputs
import proofs.«402906_j20048907337768_2_alg».proof.Proof.PreFacts
import proofs.«402906_j20048907337768_2_alg».proof.Proof.RefRun
import proofs.«402906_j20048907337768_2_alg».proof.Proof.RefValue
import proofs.«402906_j20048907337768_2_alg».proof.Proof.KernelAcc
import Idealize.ShloMosaic.Adequacy
import Idealize.ShloMosaic.Init

noncomputable section

namespace Cert.Proof

open Idealize.ShloMosaic Idealize.SL.Sem

/-- The three programs run, without fault, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- Under the precondition both idealized programs end with the mean of the samples' cross-entropy terms. -/
theorem algebraic : Cert.algebraic_KernelIdeal_ReferenceIdeal := by
  intro m ρ m' ρ' hpre hagree
  obtain ⟨d, hd, hlit⟩ := Cert.PreFacts.lit_temp
  have hP := fun c => Cert.PreFacts.of_pre _ _ _ (hpre c)
  choose x hx using fun c => (hP c).1
  choose s hs using fun c => (hP c).2.1
  choose t ht using fun c => (hP c).2.2
  refine ⟨fun c => fun _ => ((Cert.Spec.total (x c) (s c) d (t c) * (1 / 65536) : ℝ) : EReal), ?_, ?_⟩
  · exact Cert.KernelIdeal.Acc.run m ρ x s t d (fun c => ⟨hd, hlit, hx c, hs c, ht c⟩) Cert.PreFacts.lit_count
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2]
    exact Cert.ReferenceIdeal.RefV.value _ _ _ (x c) (s c) (t c) d hd (hx c) (ht c) (hs c) hlit Cert.PreFacts.lit_count

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
